-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128x16 : Shape := ⟨4, ![8, 2048, 128, 16]⟩
abbrev S1x1 : Shape := ⟨2, ![1, 1]⟩
abbrev S1 : Shape := ⟨1, ![1]⟩
abbrev S4x4 : Shape := ⟨2, ![4, 4]⟩
abbrev S4 : Shape := ⟨1, ![4]⟩
abbrev S6x6 : Shape := ⟨2, ![6, 6]⟩
abbrev S6 : Shape := ⟨1, ![6]⟩
abbrev S_ : Shape := ⟨0, ![]⟩

class Facts : Prop where
  bcast_S_S8x2048x128x16 : S_.BroadcastsInDim S8x2048x128x16 (![] : Fin 0 → Fin S8x2048x128x16.rank)
  reducesTo_S8x2048x128x16_S_d0_1_2_3 : S8x2048x128x16.ReducesTo [0, 1, 2, 3] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S6x6 : S_.BroadcastsInDim S6x6 (![] : Fin 0 → Fin S6x6.rank)
  reducesTo_S6x6_S_d0_1 : S6x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S4x4 .f32) (main_arg8 : FVec F S4 .f32) (main_arg9 : FVec F S1x1 .f32) (main_arg10 : FVec F S1 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S4 .f32) (main_arg5 : FVec F S6x6 .f32) (main_arg6 : FVec F S6 .f32) (main_arg7 : FVec F S4x4 .f32) (main_arg8 : FVec F S4 .f32) (main_arg9 : FVec F S1x1 .f32) (main_arg10 : FVec F S1 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S6x6 .f32 := Host.absf main_arg5
  let main_cst_8 : FVec F S_ .f32 := constant S_ .f32 0x7F800000#32
  let main_v25 : FVec F S6x6 .f32 := broadcastInDim S6x6 ![] bcast_S_S6x6 main_cst_8
  let main_v26 : IVec S6x6 1 := cmpf .olt main_v24 main_v25
  let main_c_9 : IVec S_ 1 := constantI S_ 1 1#1
  let main_v27 : IVec S_ 1 := (fun x v => Host.reduce IntOp.andi x v reducesTo_S6x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x128x16 .f32) (main_arg1 : FVec F S1x1 .f32) (main_arg2 : FVec F S1 .f32) (main_arg3 : FVec F S4x4 .f32) (main_arg4 : FVec F S4 .f32) (main_arg5 : FVec F S6x6 .f32) (main_arg6 : FVec F S6 .f32) (main_arg7 : FVec F S4x4 .f32) (main_arg8 : FVec F S4 .f32) (main_arg9 : FVec F S1x1 .f32) (main_arg10 : FVec F S1 .f32) : IVec S_ 1 :=
  let main_v0 : FVec F S8x2048x128x16 .f32 := Host.absf main_arg0
  let main_cst : FVec F S_ .f32 := constant S_ .f32 0x7F800000#32
  let main_v1 : FVec F S8x2048x128x16 .f32 := broadcastInDim S8x2048x128x16 ![] bcast_S_S8x2048x128x16 main_cst
  let main_v2 : IVec S8x2048x128x16 1 := cmpf .olt main_v0 main_v1
  let main_c : IVec S_ 1 := constantI S_ 1 1#1
  let main_v3 : IVec S_ 1 := (fun x v => Host.reduce IntOp.andi x v reducesTo_S8x2048x128x16_S_d0_1_2_3 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_arg5 main_arg6 main_arg7 main_arg8 main_arg9 main_arg10 main_v13 main_v16
-- ==== Kernel.lean ====
abbrev S8x2048x128x16 : Shape := ⟨4, ![8, 2048, 128, 16]⟩
abbrev S1x1 : Shape := ⟨2, ![1, 1]⟩
abbrev S1 : Shape := ⟨1, ![1]⟩
abbrev S4x4 : Shape := ⟨2, ![4, 4]⟩
abbrev S4 : Shape := ⟨1, ![4]⟩
abbrev S6x6 : Shape := ⟨2, ![6, 6]⟩
abbrev S6 : Shape := ⟨1, ![6]⟩
abbrev S_ : Shape := ⟨0, ![]⟩
abbrev S16x16 : Shape := ⟨2, ![16, 16]⟩
abbrev S2 : Shape := ⟨1, ![2]⟩
abbrev S16 : Shape := ⟨1, ![16]⟩
abbrev S2097152x16 : Shape := ⟨2, ![2097152, 16]⟩
abbrev S16384x16 : Shape := ⟨2, ![16384, 16]⟩
abbrev S1x16 : Shape := ⟨2, ![1, 16]⟩

abbrev nBuf : Space → Nat
  | .hbm => 52
  | .vmem => 6
  | .smem => 0
  | _ => 0

abbrev bufTy : (tb : Table) → Fin (tcTables nBuf tb) → BufTy
  | .hbm, ⟨0, _⟩ => ⟨S8x2048x128x16, .f32⟩
  | .hbm, ⟨1, _⟩ => ⟨S1x1, .f32⟩
  | .hbm, ⟨2, _⟩ => ⟨S1, .f32⟩
  | .hbm, ⟨3, _⟩ => ⟨S4x4, .f32⟩
  | .hbm, ⟨4, _⟩ => ⟨S4, .f32⟩
  | .hbm, ⟨5, _⟩ => ⟨S6x6, .f32⟩
  | .hbm, ⟨6, _⟩ => ⟨S6, .f32⟩
  | .hbm, ⟨7, _⟩ => ⟨S4x4, .f32⟩
  | .hbm, ⟨8, _⟩ => ⟨S4, .f32⟩
  | .hbm, ⟨9, _⟩ => ⟨S1x1, .f32⟩
  | .hbm, ⟨10, _⟩ => ⟨S1, .f32⟩
  | .hbm, ⟨11, _⟩ => ⟨S_, .f32⟩
  | .hbm, ⟨12, _⟩ => ⟨S16x16, .f32⟩
  | .hbm, ⟨13, _⟩ => ⟨S1x1, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S16x16, .f32⟩
  | .hbm, ⟨20, _⟩ => ⟨S4x4, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S16x16, .f32⟩
  | .hbm, ⟨27, _⟩ => ⟨S6x6, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S16x16, .f32⟩
  | .hbm, ⟨34, _⟩ => ⟨S4x4, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S16x16, .f32⟩
  | .hbm, ⟨41, _⟩ => ⟨S1x1, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S16x16, .f32⟩
  | .hbm, ⟨48, _⟩ => ⟨S16, .f32⟩
  | .hbm, ⟨49, _⟩ => ⟨S2097152x16, .f32⟩
  | .hbm, ⟨50, _⟩ => ⟨S2097152x16, .f32⟩
  | .hbm, ⟨51, _⟩ => ⟨S8x2048x128x16, .f32⟩
  | .local _ .vmem, ⟨0, _⟩ => ⟨S16384x16, .f32⟩
  | .local _ .vmem, ⟨1, _⟩ => ⟨S16384x16, .f32⟩
  | .local _ .vmem, ⟨2, _⟩ => ⟨S16x16, .f32⟩
  | .local _ .vmem, ⟨3, _⟩ => ⟨S16, .f32⟩
  | .local _ .vmem, ⟨4, _⟩ => ⟨S16384x16, .f32⟩
  | .local _ .vmem, ⟨5, _⟩ => ⟨S16384x16, .f32⟩
  | _, _ => ⟨S8x2048x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x16 : S_.BroadcastsInDim S16x16 (![] : Fin 0 → Fin S16x16.rank)
  transposes_S1x1_S1x1_1_0 : S1x1.Transposes [1, 0] S1x1
  bcast_S_S1 : S_.BroadcastsInDim S1 (![] : Fin 0 → Fin S1.rank)
  concatenates_S1_S1_S2_d0 : Shape.Concatenates [S1, S1] S2 0
  transposes_S4x4_S4x4_1_0 : S4x4.Transposes [1, 0] S4x4
  transposes_S6x6_S6x6_1_0 : S6x6.Transposes [1, 0] S6x6
  concatenates_S1_S4_S6_S4_S1_S16_d0 : Shape.Concatenates [S1, S4, S6, S4, S1] S16 0
  shapeCasts_S8x2048x128x16_S2097152x16 : S8x2048x128x16.ShapeCasts S2097152x16
  inb_S16384x16_S16384x16_0_0 : ∀ a, (![0, 0] : Fin 2 → Nat) a + S16384x16.size a ≤ S16384x16.size a
  h_S16384x16 : 0 < S16384x16.numel
  shapeCasts_S16384x16_S16384x16 : S16384x16.ShapeCasts S16384x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16_S16_0 : ∀ a, (![0] : Fin 1 → Nat) a + S16.size a ≤ S16.size a
  h_S16 : 0 < S16.numel
  shapeCasts_S16_S16 : S16.ShapeCasts S16
  shapeCasts_S16_S1x16 : S16.ShapeCasts S1x16
  broadcasts_S1x16_S16384x16 : S1x16.Broadcasts S16384x16
  shapeCasts_S2097152x16_S8x2048x128x16 : S2097152x16.ShapeCasts S8x2048x128x16
  scatter_S16x16_S2_S1x1_01_n_01_0_wf : ScatterDims.WF S16x16 S2 S1x1 [0, 1] [] [0, 1] 0
  scatter_S16x16_S2_S4x4_01_n_01_0_wf : ScatterDims.WF S16x16 S2 S4x4 [0, 1] [] [0, 1] 0
  scatter_S16x16_S2_S6x6_01_n_01_0_wf : ScatterDims.WF S16x16 S2 S6x6 [0, 1] [] [0, 1] 0
  dot_S16384x16_S16x16_S16384x16_1_0_0_1_n_n_wf : DotDims.WF S16384x16 S16x16 S16384x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S2097152x16.size a
  hwx0_0 : ∀ i : grid0.Coords, EltTy.bits .f32 = 32 ∨ (Rect.block (s := S2097152x16) S16384x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x16.size a ≤ S2097152x16.size a
  hwx0_3 : ∀ i : grid0.Coords, EltTy.bits .f32 = 32 ∨ (Rect.block (s := S2097152x16) S16384x16.size (cc0_transform_3 i) (hinb0_3 i)).WholeWords (EltTy.packing .f32)

variable [Facts₀]

def scatter_S16x16_S2_S1x1_01_n_01_0 : ScatterDims S16x16 S2 S1x1 where
  updateWindowDims := [0, 1]
  insertedWindowDims := []
  scatterDimsToOperandDims := [0, 1]
  indexVectorDim := 0
  wf := scatter_S16x16_S2_S1x1_01_n_01_0_wf
def scatter_S16x16_S2_S4x4_01_n_01_0 : ScatterDims S16x16 S2 S4x4 where
  updateWindowDims := [0, 1]
  insertedWindowDims := []
  scatterDimsToOperandDims := [0, 1]
  indexVectorDim := 0
  wf := scatter_S16x16_S2_S4x4_01_n_01_0_wf
def scatter_S16x16_S2_S6x6_01_n_01_0 : ScatterDims S16x16 S2 S6x6 where
  updateWindowDims := [0, 1]
  insertedWindowDims := []
  scatterDimsToOperandDims := [0, 1]
  indexVectorDim := 0
  wf := scatter_S16x16_S2_S6x6_01_n_01_0_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf

abbrev win0_0 : Pipeline.Window sig grid0 :=
  Pipeline.Window.ofSpec (Memref.whole main_v27) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S16384x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128x16 : Shape := ⟨4, ![8, 2048, 128, 16]⟩
abbrev S1x1 : Shape := ⟨2, ![1, 1]⟩
abbrev S1 : Shape := ⟨1, ![1]⟩
abbrev S4x4 : Shape := ⟨2, ![4, 4]⟩
abbrev S4 : Shape := ⟨1, ![4]⟩
abbrev S6x6 : Shape := ⟨2, ![6, 6]⟩
abbrev S6 : Shape := ⟨1, ![6]⟩
abbrev S8x2048x128x1 : Shape := ⟨4, ![8, 2048, 128, 1]⟩
abbrev S1x1x1x1 : Shape := ⟨4, ![1, 1, 1, 1]⟩
abbrev S8x2048x128x4 : Shape := ⟨4, ![8, 2048, 128, 4]⟩
abbrev S1x1x1x4 : Shape := ⟨4, ![1, 1, 1, 4]⟩
abbrev S8x2048x128x6 : Shape := ⟨4, ![8, 2048, 128, 6]⟩
abbrev S1x1x1x6 : Shape := ⟨4, ![1, 1, 1, 6]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x128x16, .f32⟩
  | .hbm, ⟨1, _⟩ => ⟨S1x1, .f32⟩
  | .hbm, ⟨2, _⟩ => ⟨S1, .f32⟩
  | .hbm, ⟨3, _⟩ => ⟨S4x4, .f32⟩
  | .hbm, ⟨4, _⟩ => ⟨S4, .f32⟩
  | .hbm, ⟨5, _⟩ => ⟨S6x6, .f32⟩
  | .hbm, ⟨6, _⟩ => ⟨S6, .f32⟩
  | .hbm, ⟨7, _⟩ => ⟨S4x4, .f32⟩
  | .hbm, ⟨8, _⟩ => ⟨S4, .f32⟩
  | .hbm, ⟨9, _⟩ => ⟨S1x1, .f32⟩
  | .hbm, ⟨10, _⟩ => ⟨S1, .f32⟩
  | .hbm, ⟨11, _⟩ => ⟨S8x2048x128x1, .f32⟩
  | .hbm, ⟨12, _⟩ => ⟨S8x2048x128x1, .f32⟩
  | .hbm, ⟨13, _⟩ => ⟨S1x1x1x1, .f32⟩
  | .hbm, ⟨14, _⟩ => ⟨S8x2048x128x1, .f32⟩
  | .hbm, ⟨15, _⟩ => ⟨S8x2048x128x1, .f32⟩
  | .hbm, ⟨16, _⟩ => ⟨S8x2048x128x4, .f32⟩
  | .hbm, ⟨17, _⟩ => ⟨S8x2048x128x4, .f32⟩
  | .hbm, ⟨18, _⟩ => ⟨S1x1x1x4, .f32⟩
  | .hbm, ⟨19, _⟩ => ⟨S8x2048x128x4, .f32⟩
  | .hbm, ⟨20, _⟩ => ⟨S8x2048x128x4, .f32⟩
  | .hbm, ⟨21, _⟩ => ⟨S8x2048x128x6, .f32⟩
  | .hbm, ⟨22, _⟩ => ⟨S8x2048x128x6, .f32⟩
  | .hbm, ⟨23, _⟩ => ⟨S1x1x1x6, .f32⟩
  | .hbm, ⟨24, _⟩ => ⟨S8x2048x128x6, .f32⟩
  | .hbm, ⟨25, _⟩ => ⟨S8x2048x128x6, .f32⟩
  | .hbm, ⟨26, _⟩ => ⟨S8x2048x128x4, .f32⟩
  | .hbm, ⟨27, _⟩ => ⟨S8x2048x128x4, .f32⟩
  | .hbm, ⟨28, _⟩ => ⟨S1x1x1x4, .f32⟩
  | .hbm, ⟨29, _⟩ => ⟨S8x2048x128x4, .f32⟩
  | .hbm, ⟨30, _⟩ => ⟨S8x2048x128x4, .f32⟩
  | .hbm, ⟨31, _⟩ => ⟨S8x2048x128x1, .f32⟩
  | .hbm, ⟨32, _⟩ => ⟨S8x2048x128x1, .f32⟩
  | .hbm, ⟨33, _⟩ => ⟨S1x1x1x1, .f32⟩
  | .hbm, ⟨34, _⟩ => ⟨S8x2048x128x1, .f32⟩
  | .hbm, ⟨35, _⟩ => ⟨S8x2048x128x1, .f32⟩
  | .hbm, ⟨36, _⟩ => ⟨S8x2048x128x16, .f32⟩
  | _, _ => ⟨S8x2048x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S8x2048x128x16_S8x2048x128x1_0_0_0_0 : S8x2048x128x16.Slices ![0, 0, 0, 0] S8x2048x128x1
  bcast_S1_S1x1x1x1_3 : S1.BroadcastsInDim S1x1x1x1 (![3] : Fin 1 → Fin S1x1x1x1.rank)
  bcast_S1x1x1x1_S8x2048x128x1_0_1_2_3 : S1x1x1x1.BroadcastsInDim S8x2048x128x1 (![0, 1, 2, 3] : Fin 4 → Fin S8x2048x128x1.rank)
  slices_S8x2048x128x16_S8x2048x128x4_0_0_0_1 : S8x2048x128x16.Slices ![0, 0, 0, 1] S8x2048x128x4
  bcast_S4_S1x1x1x4_3 : S4.BroadcastsInDim S1x1x1x4 (![3] : Fin 1 → Fin S1x1x1x4.rank)
  bcast_S1x1x1x4_S8x2048x128x4_0_1_2_3 : S1x1x1x4.BroadcastsInDim S8x2048x128x4 (![0, 1, 2, 3] : Fin 4 → Fin S8x2048x128x4.rank)
  slices_S8x2048x128x16_S8x2048x128x6_0_0_0_5 : S8x2048x128x16.Slices ![0, 0, 0, 5] S8x2048x128x6
  bcast_S6_S1x1x1x6_3 : S6.BroadcastsInDim S1x1x1x6 (![3] : Fin 1 → Fin S1x1x1x6.rank)
  bcast_S1x1x1x6_S8x2048x128x6_0_1_2_3 : S1x1x1x6.BroadcastsInDim S8x2048x128x6 (![0, 1, 2, 3] : Fin 4 → Fin S8x2048x128x6.rank)
  slices_S8x2048x128x16_S8x2048x128x4_0_0_0_11 : S8x2048x128x16.Slices ![0, 0, 0, 11] S8x2048x128x4
  slices_S8x2048x128x16_S8x2048x128x1_0_0_0_15 : S8x2048x128x16.Slices ![0, 0, 0, 15] S8x2048x128x1
  concatenates_S8x2048x128x1_S8x2048x128x4_S8x2048x128x6_S8x2048x128x4_S8x2048x128x1_S8x2048x128x16_d3 : Shape.Concatenates [S8x2048x128x1, S8x2048x128x4, S8x2048x128x6, S8x2048x128x4, S8x2048x128x1] S8x2048x128x16 3
  dot_S8x2048x128x1_S1x1_S8x2048x128x1_3_1_012_0_n_n_wf : DotDims.WF S8x2048x128x1 S1x1 S8x2048x128x1 [3] [1] [0, 1, 2] [0] [] []
  dot_S8x2048x128x4_S4x4_S8x2048x128x4_3_1_012_0_n_n_wf : DotDims.WF S8x2048x128x4 S4x4 S8x2048x128x4 [3] [1] [0, 1, 2] [0] [] []
  dot_S8x2048x128x6_S6x6_S8x2048x128x6_3_1_012_0_n_n_wf : DotDims.WF S8x2048x128x6 S6x6 S8x2048x128x6 [3] [1] [0, 1, 2] [0] [] []

variable [Facts₀]

def dot_S8x2048x128x1_S1x1_S8x2048x128x1_3_1_012_0_n_n : DotDims S8x2048x128x1 S1x1 S8x2048x128x1 where
  lhsContracting := [3]
  rhsContracting := [1]
  lhsNonContracting := [0, 1, 2]
  rhsNonContracting := [0]
  lhsBatch := []
  rhsBatch := []
  wf := dot_S8x2048x128x1_S1x1_S8x2048x128x1_3_1_012_0_n_n_wf
def dot_S8x2048x128x4_S4x4_S8x2048x128x4_3_1_012_0_n_n : DotDims S8x2048x128x4 S4x4 S8x2048x128x4 where
  lhsContracting := [3]
  rhsContracting := [1]
  lhsNonContracting := [0, 1, 2]
  rhsNonContracting := [0]
  lhsBatch := []
  rhsBatch := []
  wf := dot_S8x2048x128x4_S4x4_S8x2048x128x4_3_1_012_0_n_n_wf
def dot_S8x2048x128x6_S6x6_S8x2048x128x6_3_1_012_0_n_n : DotDims S8x2048x128x6 S6x6 S8x2048x128x6 where
  lhsContracting := [3]
  rhsContracting := [1]
  lhsNonContracting := [0, 1, 2]
  rhsNonContracting := [0]
  lhsBatch := []
  rhsBatch := []
  wf := dot_S8x2048x128x6_S6x6_S8x2048x128x6_3_1_012_0_n_n_wf

class Facts : Prop extends Facts₀ where

variable [Facts]
-- ==== Proof.KernelFrame.lean ====
/-
  The frame of `Kernel`: the program runs to its end, faults nowhere, and every argument array ends as it was
  launched — at any float instance.

  @main is three stretches: host arithmetic (the block-diagonal matrix, the joined bias, the rows), one pipelined
  call over 128 grid points, and one reshape.  At grid point t the call's body finds in its three input buffers block t
  of the rows (16384 rows of 16), the whole 16 x 16 matrix and the whole bias — the last two fetched once, at the first
  point, and found in place afterwards —, and leaves in its output buffer one value computed from the three, stored over
  the whole buffer (it also loads the output buffer beforehand and drops what it read).  Nothing the host stretches
  write is an argument array, and no window of the call stages one, so every argument is found as launched.
-/
import proofs.«181650_j34892314313418_1_alg».proof.Proof.Gen.Kernel.Launch
import proofs.«181650_j34892314313418_1_alg».proof.Proof.Gen.Kernel.Skeleton
import proofs.«181650_j34892314313418_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- What core `c`'s buffers hold when the call is entered: the launch contents after the host arithmetic. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host arithmetic, the call, and the reshape that follows it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the call touches the call's arrays and the buffers that bypass it, nothing scoped. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result, which is none of the call's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

/-- @main's eleven arguments. -/
abbrev argRef : Fin 11 → Ref sig .tc :=
  ![main_arg0, main_arg1, main_arg2, main_arg3, main_arg4, main_arg5, main_arg6, main_arg7, main_arg8, main_arg9, main_arg10]

/-- Every host line before the call writes a buffer of its own: each argument is found as launched. -/
theorem V_arg (c : Dev nD) (a : Fin 11) : V m c (argRef a) = m ((c : Thread nD τ).loc (argRef a)) := by
  fin_cases a <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- Nor does the reshape after the call write one: each argument ends as launched. -/
theorem W_arg (dats : (p : Fin 1) → (c : Dev nD) → Dat τ (Elt F) Unit ℕ (UR sig nD τ) ℕ (cfgs p) c) (c : Dev nD) (a : Fin 11) :
    Pipeline.afterTail₀ cfgs dats 0 (V0 m) [hostOps1] c (argRef a) = m ((c : Thread nD τ).loc (argRef a)) := by
  unfold Pipeline.afterTail₀
  have hw : ∀ a : Fin 11, ∀ op ∈ (List.flatten [hostOps1] : List (HloOp τ sig (Elt F))), Proc.devRef .tc (argRef a) ∉ op.writes := by
    intro a
    refine List.forall_iff_forall_mem.mp ?_
    fin_cases a <;>
    (simp only [hostOps1, List.flatten_cons, List.flatten_nil, List.append_nil, List.cons_append,
      List.nil_append, List.Forall, StableHlo.reshape_writes, Finset.mem_singleton]
     exact StableHlo.devRef_ne_of_ne (by decide))
  rw [StableHlo.after_of_forall_not_mem (b := Proc.devRef .tc (argRef a)) _ _ (hw a),
    Pipeline.withArrays_of_ne _ c (V0 m c) _ (argRef a) (by
      have : ∀ a : Fin 11, ∀ w, Pipeline.arrRef spec0 w ≠ argRef a := by decide
      exact this a)]
  exact V_arg m c a

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input window 0 (the rows) holds the window's block at every point, fetched there or not: a point that
    does not fetch it has the block index of the point before, and the body leaves input buffers as it found them. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 (the matrix) holds the window's block at every point, fetched there or not: a point that
    does not fetch it has the block index of the point before, and the body leaves input buffers as it found them. -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 (the bias) holds the window's block at every point, fetched there or not: a point that
    does not fetch it has the block index of the point before, and the body leaves input buffers as it found them. -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The three loads and the store each take their whole buffer. -/
abbrev rRows : Rect S16384x16 := Rect.unit (s := S16384x16) ![0, 0] S16384x16.size inb_S16384x16_S16384x16_0_0
abbrev rMat : Rect S16x16 := Rect.unit (s := S16x16) ![0, 0] S16x16.size inb_S16x16_S16x16_0_0
abbrev rBias : Rect S16 := Rect.unit (s := S16) ![0] S16.size inb_S16_S16_0

/-- The output buffer after the body, from the three input buffers' contents: its one store, over the whole buffer. -/
def outBlock (x0 : Vec F S16384x16 .f32) (x1 : Vec F S16x16 .f32) (x2 : Vec F S16 .f32) : Vec F S16384x16 .f32 :=
  View.canon [⟨rRows, k0_pay1 (View.ld x0 rRows) (View.ld x1 rMat) (View.ld x2 rBias)⟩]

/-- The store covers the buffer. -/
theorem store_covers (p0 : Vec F S16384x16 .f32) (y : S16384x16.Idx) :
    ∃ pc ∈ ([⟨rRows, p0⟩] : List (View.Piece (Elt F) S16384x16 .f32)), y ∈ pc.1.set :=
  View.cover_of_tiled [⟨rRows, p0⟩] S16384x16.size (by rfl) y

/-! ## The body's triple -/

set_option maxHeartbeats 1000000 in
/-- The body on whole buffers — the inputs' at contents `x0`, `x1`, `x2`, the output's at anything — returns with the
    inputs' as they were and the output's at `outBlock` of them. -/
theorem sound_kernel (c : Dev nD) (E : Set ℕ) (i : grid0.Coords)
    (arg1 : Memref sig .tc .vmem S16384x16 .f32) (harg1 : arg1.IsWhole) (arg2 : Memref sig .tc .vmem S16x16 .f32) (harg2 : arg2.IsWhole)
    (arg3 : Memref sig .tc .vmem S16 .f32) (harg3 : arg3.IsWhole) (arg4 : Memref sig .tc .vmem S16384x16 .f32) (harg4 : arg4.IsWhole)
    (x0 : Vec F S16384x16 .f32) (x1 : Vec F S16x16 .f32) (x2 : Vec F S16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__grade_linear_kernel i arg1 harg1 arg2 harg2 arg3 harg3 arg4 harg4) K := by
  simp only [cc0__grade_linear_kernel_eq_skeleton]; unfold cc0__grade_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The call's proof data -/

/-- On core `c`: the arrays as the call finds them; after the body at point `t` each input buffer at its block and the
    output buffer at `outBlock` of the three; the invariant is the scoped rest and the generator register, untouched;
    nothing is owed and every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_mat (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem found_rows (c : Dev nD) (t : Fin cfg0.N) (d) : (dats m 0 c).before 0 t d = iblk m c 0 t :=
  found0_of m (dats m 0 c) (A_eq m c 0) (after_rows m c) t d
theorem found_mat (c : Dev nD) (t : Fin cfg0.N) (d) : (dats m 0 c).before 1 t d = iblk m c 1 t :=
  found1_of m (dats m 0 c) (A_eq m c 1) (after_mat m c) t d
theorem found_bias (c : Dev nD) (t : Fin cfg0.N) (d) : (dats m 0 c).before 2 t d = iblk m c 2 t :=
  found2_of m (dats m 0 c) (A_eq m c 2) (after_bias m c) t d

/-! ## The body at a grid point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_rows, found_mat, found_bias]
  rw [show (dats m 0 c).Φ t.succ = (dats m 0 c).Φ t.castSucc from rfl,
    show (dats m 0 c).owesAt () t.succ = (dats m 0 c).owesAt () t.castSucc from rfl,
    after_rows, after_mat, after_bias, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and at the end each of the call's arrays holds what the proof data
    say was written back to it, every other buffer what the reshape after the call leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- An argument is no array of the call, so the run's post speaks of it through the reshape's valuation. -/
theorem arg_ends (r) (hr : Pipeline.FramePost cfgs (dats m) 0 (Pipeline.afterTail₀ cfgs (dats m) 0 (V0 m) [hostOps1]) r) (c : Dev nD) (a : Fin 11) :
    r.2.mem ((c.tc : Thread nD τ).loc (argRef a)) = m ((c.tc : Thread nD τ).loc (argRef a)) :=
  ((hr c).2 (argRef a) (Pipeline.mem_restRefs_of (argRef a) (by fin_cases a <;> decide) (by fin_cases a <;> decide))).trans (W_arg m (dats m) c a)

/-- The frame: @main runs to its end and the eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c =>
    ⟨arg_ends m r hr c 0, arg_ends m r hr c 1, arg_ends m r hr c 2, arg_ends m r hr c 3, arg_ends m r hr c 4, arg_ends m r hr c 5,
      arg_ends m r hr c 6, arg_ends m r hr c 7, arg_ends m r hr c 8, arg_ends m r hr c 9, arg_ends m r hr c 10⟩) (run_main m ρ)

end Cert.Kernel.Fr

end
-- ==== Proof.KernelIdealFrame.lean ====
/-
  The frame of `KernelIdeal`: the program runs to its end, faults nowhere, and every argument array ends as it was
  launched — at any float instance.

  @main is three stretches: host arithmetic (the block-diagonal matrix, the joined bias, the rows), one pipelined
  call over 128 grid points, and one reshape.  At grid point t the call's body finds in its three input buffers block t
  of the rows (16384 rows of 16), the whole 16 x 16 matrix and the whole bias — the last two fetched once, at the first
  point, and found in place afterwards —, and leaves in its output buffer one value computed from the three, stored over
  the whole buffer (it also loads the output buffer beforehand and drops what it read).  Nothing the host stretches
  write is an argument array, and no window of the call stages one, so every argument is found as launched.
-/
import proofs.«181650_j34892314313418_1_alg».proof.Proof.Gen.KernelIdeal.Launch
import proofs.«181650_j34892314313418_1_alg».proof.Proof.Gen.KernelIdeal.Skeleton
import proofs.«181650_j34892314313418_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- What core `c`'s buffers hold when the call is entered: the launch contents after the host arithmetic. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host arithmetic, the call, and the reshape that follows it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the call touches the call's arrays and the buffers that bypass it, nothing scoped. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result, which is none of the call's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

/-- @main's eleven arguments. -/
abbrev argRef : Fin 11 → Ref sig .tc :=
  ![main_arg0, main_arg1, main_arg2, main_arg3, main_arg4, main_arg5, main_arg6, main_arg7, main_arg8, main_arg9, main_arg10]

/-- Every host line before the call writes a buffer of its own: each argument is found as launched. -/
theorem V_arg (c : Dev nD) (a : Fin 11) : V m c (argRef a) = m ((c : Thread nD τ).loc (argRef a)) := by
  fin_cases a <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- Nor does the reshape after the call write one: each argument ends as launched. -/
theorem W_arg (dats : (p : Fin 1) → (c : Dev nD) → Dat τ (Elt F) Unit ℕ (UR sig nD τ) ℕ (cfgs p) c) (c : Dev nD) (a : Fin 11) :
    Pipeline.afterTail₀ cfgs dats 0 (V0 m) [hostOps1] c (argRef a) = m ((c : Thread nD τ).loc (argRef a)) := by
  unfold Pipeline.afterTail₀
  have hw : ∀ a : Fin 11, ∀ op ∈ (List.flatten [hostOps1] : List (HloOp τ sig (Elt F))), Proc.devRef .tc (argRef a) ∉ op.writes := by
    intro a
    refine List.forall_iff_forall_mem.mp ?_
    fin_cases a <;>
    (simp only [hostOps1, List.flatten_cons, List.flatten_nil, List.append_nil, List.cons_append,
      List.nil_append, List.Forall, StableHlo.reshape_writes, Finset.mem_singleton]
     exact StableHlo.devRef_ne_of_ne (by decide))
  rw [StableHlo.after_of_forall_not_mem (b := Proc.devRef .tc (argRef a)) _ _ (hw a),
    Pipeline.withArrays_of_ne _ c (V0 m c) _ (argRef a) (by
      have : ∀ a : Fin 11, ∀ w, Pipeline.arrRef spec0 w ≠ argRef a := by decide
      exact this a)]
  exact V_arg m c a

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input window 0 (the rows) holds the window's block at every point, fetched there or not: a point that
    does not fetch it has the block index of the point before, and the body leaves input buffers as it found them. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 (the matrix) holds the window's block at every point, fetched there or not: a point that
    does not fetch it has the block index of the point before, and the body leaves input buffers as it found them. -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 (the bias) holds the window's block at every point, fetched there or not: a point that
    does not fetch it has the block index of the point before, and the body leaves input buffers as it found them. -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The three loads and the store each take their whole buffer. -/
abbrev rRows : Rect S16384x16 := Rect.unit (s := S16384x16) ![0, 0] S16384x16.size inb_S16384x16_S16384x16_0_0
abbrev rMat : Rect S16x16 := Rect.unit (s := S16x16) ![0, 0] S16x16.size inb_S16x16_S16x16_0_0
abbrev rBias : Rect S16 := Rect.unit (s := S16) ![0] S16.size inb_S16_S16_0

/-- The output buffer after the body, from the three input buffers' contents: its one store, over the whole buffer. -/
def outBlock (x0 : Vec F S16384x16 .f32) (x1 : Vec F S16x16 .f32) (x2 : Vec F S16 .f32) : Vec F S16384x16 .f32 :=
  View.canon [⟨rRows, k0_pay1 (View.ld x0 rRows) (View.ld x1 rMat) (View.ld x2 rBias)⟩]

/-- The store covers the buffer. -/
theorem store_covers (p0 : Vec F S16384x16 .f32) (y : S16384x16.Idx) :
    ∃ pc ∈ ([⟨rRows, p0⟩] : List (View.Piece (Elt F) S16384x16 .f32)), y ∈ pc.1.set :=
  View.cover_of_tiled [⟨rRows, p0⟩] S16384x16.size (by rfl) y

/-! ## The body's triple -/

set_option maxHeartbeats 1000000 in
/-- The body on whole buffers — the inputs' at contents `x0`, `x1`, `x2`, the output's at anything — returns with the
    inputs' as they were and the output's at `outBlock` of them. -/
theorem sound_kernel (c : Dev nD) (E : Set ℕ) (i : grid0.Coords)
    (arg1 : Memref sig .tc .vmem S16384x16 .f32) (harg1 : arg1.IsWhole) (arg2 : Memref sig .tc .vmem S16x16 .f32) (harg2 : arg2.IsWhole)
    (arg3 : Memref sig .tc .vmem S16 .f32) (harg3 : arg3.IsWhole) (arg4 : Memref sig .tc .vmem S16384x16 .f32) (harg4 : arg4.IsWhole)
    (x0 : Vec F S16384x16 .f32) (x1 : Vec F S16x16 .f32) (x2 : Vec F S16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__grade_linear_kernel i arg1 harg1 arg2 harg2 arg3 harg3 arg4 harg4) K := by
  simp only [cc0__grade_linear_kernel_eq_skeleton]; unfold cc0__grade_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The call's proof data -/

/-- On core `c`: the arrays as the call finds them; after the body at point `t` each input buffer at its block and the
    output buffer at `outBlock` of the three; the invariant is the scoped rest and the generator register, untouched;
    nothing is owed and every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_mat (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem found_rows (c : Dev nD) (t : Fin cfg0.N) (d) : (dats m 0 c).before 0 t d = iblk m c 0 t :=
  found0_of m (dats m 0 c) (A_eq m c 0) (after_rows m c) t d
theorem found_mat (c : Dev nD) (t : Fin cfg0.N) (d) : (dats m 0 c).before 1 t d = iblk m c 1 t :=
  found1_of m (dats m 0 c) (A_eq m c 1) (after_mat m c) t d
theorem found_bias (c : Dev nD) (t : Fin cfg0.N) (d) : (dats m 0 c).before 2 t d = iblk m c 2 t :=
  found2_of m (dats m 0 c) (A_eq m c 2) (after_bias m c) t d

/-! ## The body at a grid point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_rows, found_mat, found_bias]
  rw [show (dats m 0 c).Φ t.succ = (dats m 0 c).Φ t.castSucc from rfl,
    show (dats m 0 c).owesAt () t.succ = (dats m 0 c).owesAt () t.castSucc from rfl,
    after_rows, after_mat, after_bias, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and at the end each of the call's arrays holds what the proof data
    say was written back to it, every other buffer what the reshape after the call leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- An argument is no array of the call, so the run's post speaks of it through the reshape's valuation. -/
theorem arg_ends (r) (hr : Pipeline.FramePost cfgs (dats m) 0 (Pipeline.afterTail₀ cfgs (dats m) 0 (V0 m) [hostOps1]) r) (c : Dev nD) (a : Fin 11) :
    r.2.mem ((c.tc : Thread nD τ).loc (argRef a)) = m ((c.tc : Thread nD τ).loc (argRef a)) :=
  ((hr c).2 (argRef a) (Pipeline.mem_restRefs_of (argRef a) (by fin_cases a <;> decide) (by fin_cases a <;> decide))).trans (W_arg m (dats m) c a)

/-- The frame: @main runs to its end and the eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c =>
    ⟨arg_ends m r hr c 0, arg_ends m r hr c 1, arg_ends m r hr c 2, arg_ends m r hr c 3, arg_ends m r hr c 4, arg_ends m r hr c 5,
      arg_ends m r hr c 6, arg_ends m r hr c 7, arg_ends m r hr c 8, arg_ends m r hr c 9, arg_ends m r hr c 10⟩) (run_main m ρ)

end Cert.KernelIdeal.Fr

end
-- ==== Proof.HostGlue.lean ====
/-
  The host arithmetic in front of the kernel call, as three pure functions of the arguments.

  * `matOf`: the 16 x 16 matrix the call multiplies by.  It starts as zeros, and for each grade g the transpose of
    that grade's matrix w_g is written over the square block whose corner is (o_g, o_g): five writes, corners
    0, 1, 5, 11, 15.  So entry (k, o) is w_g[o - o_g, k - o_g] when k and o lie in one grade g, and zero otherwise.
  * `biasOf`: the five bias vectors laid end to end, sixteen entries.
  * `rowsOf`: the array of multivectors [8, 2048, 128, 16] viewed as 2097152 rows of 16.
-/
import proofs.«181650_j34892314313418_1_alg».proof.KernelIdeal

noncomputable section

namespace Cert.KernelIdeal.HostGlue

open Idealize.ShloMosaic Idealize.SL.Sem Cert.KernelIdeal
open Cert.KernelIdeal.Facts₀

variable {F : FTy → Type} [FloatOps F] [Facts]

/-- The corner (n, n) of a diagonal block, as the pair of words the write is addressed by. -/
def cornerAt (n : BitVec 32) : (⟨S2, .i32⟩ : BufTy).Contents (Elt F) :=
  concatenate S2 0 [⟨S1, (broadcastInDim S1 ![] bcast_S_S1 (constantI S_ 32 n : (⟨S_, .i32⟩ : BufTy).Contents (Elt F)) : (⟨S1, .i32⟩ : BufTy).Contents (Elt F))⟩,
    ⟨S1, (broadcastInDim S1 ![] bcast_S_S1 (constantI S_ 32 n : (⟨S_, .i32⟩ : BufTy).Contents (Elt F)) : (⟨S1, .i32⟩ : BufTy).Contents (Elt F))⟩] concatenates_S1_S1_S2_d0

/-- The 16 x 16 zero matrix the writes start from. -/
def zeroMat : (⟨S16x16, .f32⟩ : BufTy).Contents (Elt F) :=
  broadcastInDim S16x16 ![] bcast_S_S16x16 (constant S_ .f32 0x00000000#32 : (⟨S_, .f32⟩ : BufTy).Contents (Elt F))

/-- The block-diagonal matrix: each grade's transposed matrix written at its corner, grade 0 first. -/
def matOf (w0 : (⟨S1x1, .f32⟩ : BufTy).Contents (Elt F)) (w1 : (⟨S4x4, .f32⟩ : BufTy).Contents (Elt F))
    (w2 : (⟨S6x6, .f32⟩ : BufTy).Contents (Elt F)) (w3 : (⟨S4x4, .f32⟩ : BufTy).Contents (Elt F))
    (w4 : (⟨S1x1, .f32⟩ : BufTy).Contents (Elt F)) : (⟨S16x16, .f32⟩ : BufTy).Contents (Elt F) :=
  Host.scatter scatter_S16x16_S2_S1x1_01_n_01_0 (fun _ b => b)
    (Host.scatter scatter_S16x16_S2_S4x4_01_n_01_0 (fun _ b => b)
      (Host.scatter scatter_S16x16_S2_S6x6_01_n_01_0 (fun _ b => b)
        (Host.scatter scatter_S16x16_S2_S4x4_01_n_01_0 (fun _ b => b)
          (Host.scatter scatter_S16x16_S2_S1x1_01_n_01_0 (fun _ b => b) (zeroMat (F := F))
            (cornerAt (F := F) 0#32) (transpose S1x1 [1, 0] w0 transposes_S1x1_S1x1_1_0))
          (cornerAt (F := F) 1#32) (transpose S4x4 [1, 0] w1 transposes_S4x4_S4x4_1_0))
        (cornerAt (F := F) 5#32) (transpose S6x6 [1, 0] w2 transposes_S6x6_S6x6_1_0))
      (cornerAt (F := F) 11#32) (transpose S4x4 [1, 0] w3 transposes_S4x4_S4x4_1_0))
    (cornerAt (F := F) 15#32) (transpose S1x1 [1, 0] w4 transposes_S1x1_S1x1_1_0)

/-- The five bias vectors end to end. -/
def biasOf (β0 : (⟨S1, .f32⟩ : BufTy).Contents (Elt F)) (β1 : (⟨S4, .f32⟩ : BufTy).Contents (Elt F))
    (β2 : (⟨S6, .f32⟩ : BufTy).Contents (Elt F)) (β3 : (⟨S4, .f32⟩ : BufTy).Contents (Elt F))
    (β4 : (⟨S1, .f32⟩ : BufTy).Contents (Elt F)) : (⟨S16, .f32⟩ : BufTy).Contents (Elt F) :=
  concatenate S16 0 [⟨S1, β0⟩, ⟨S4, β1⟩, ⟨S6, β2⟩, ⟨S4, β3⟩, ⟨S1, β4⟩] concatenates_S1_S4_S6_S4_S1_S16_d0

/-- The multivectors as rows: [8, 2048, 128, 16] read as [2097152, 16]. -/
def rowsOf (x : (⟨S8x2048x128x16, .f32⟩ : BufTy).Contents (Elt F)) : (⟨S2097152x16, .f32⟩ : BufTy).Contents (Elt F) :=
  shapeCast S2097152x16 x shapeCasts_S8x2048x128x16_S2097152x16

end Cert.KernelIdeal.HostGlue

end
-- ==== Proof.GradeSpec.lean ====
/-
  The mathematics of the certificate, stated once over literal shapes and no program.

  A multivector has 16 components in five grades, the components of grade g being the d_g consecutive ones from
  offset o_g: (o_g, d_g) = (0, 1), (1, 4), (5, 6), (11, 4), (15, 1).  The grade-wise linear map applies to each
  grade its own square matrix and bias and leaves the grades apart:

      y[b, s, p, o_g + j] = (sum over i < d_g of x[b, s, p, o_g + i] * w_g[j, i]) + beta_g[j].

  `gradeAt` is one grade's entry, `gradeLinear` the whole array, entry by entry, the grade read off the last
  coordinate.
-/
import Idealize.ShloMosaic.PureOps.Ideal
import Idealize.ShloMosaic.Lib.ValueIdx

noncomputable section

namespace Cert.GradeLinear

open Idealize.ShloMosaic Idealize.ShloMosaic.ValueIdx

/-- The array of multivectors, [8, 2048, 128, 16]. -/
abbrev XS : Shape := ⟨4, ![8, 2048, 128, 16]⟩
/-- A grade's matrix [d, d] and bias [d]. -/
abbrev WS (d : Nat) : Shape := ⟨2, ![d, d]⟩
abbrev BS (d : Nat) : Shape := ⟨1, ![d]⟩

/-- Entry j of one grade's image: the grade's d components start at `off`; row j of its matrix against them,
    plus entry j of its bias. -/
def gradeAt (off d : Nat) (h : off + d ≤ 16) (x : XS.Idx → EReal) (w : (WS d).Idx → EReal) (β : (BS d).Idx → EReal)
    (b : Fin 8) (s : Fin 2048) (p : Fin 128) (j : Fin d) : EReal :=
  (∑ i : Fin d, x (ix4 b s p (⟨off + i.val, by have := i.isLt; omega⟩ : Fin 16)) * w (ix2 j i)) + β (ix1 j)

/-- The grade-wise linear map, entry by entry: component `o` lies in the grade whose span holds it. -/
def gradeLinear (x : XS.Idx → EReal)
    (w0 : (WS 1).Idx → EReal) (β0 : (BS 1).Idx → EReal) (w1 : (WS 4).Idx → EReal) (β1 : (BS 4).Idx → EReal)
    (w2 : (WS 6).Idx → EReal) (β2 : (BS 6).Idx → EReal) (w3 : (WS 4).Idx → EReal) (β3 : (BS 4).Idx → EReal)
    (w4 : (WS 1).Idx → EReal) (β4 : (BS 1).Idx → EReal) (b : Fin 8) (s : Fin 2048) (p : Fin 128) (o : Fin 16) : EReal :=
  if h0 : o.val < 1 then gradeAt 0 1 (by omega) x w0 β0 b s p ⟨o.val, h0⟩
  else if h1 : o.val < 5 then gradeAt 1 4 (by omega) x w1 β1 b s p ⟨o.val - 1, by omega⟩
  else if h2 : o.val < 11 then gradeAt 5 6 (by omega) x w2 β2 b s p ⟨o.val - 5, by omega⟩
  else if h3 : o.val < 15 then gradeAt 11 4 (by omega) x w3 β3 b s p ⟨o.val - 11, by omega⟩
  else gradeAt 15 1 (by omega) x w4 β4 b s p ⟨o.val - 15, by have := o.isLt; omega⟩

/-- A sum over sixteen components against a column that vanishes outside one grade's span is the sum over the
    grade: the products off the span are products with zero. -/
theorem sum_grade_column (off d : Nat) (h : off + d ≤ 16) (x col : Fin 16 → EReal) (g : Fin d → EReal)
    (hin : ∀ i : Fin d, col ⟨off + i.val, by have := i.isLt; omega⟩ = g i)
    (hout : ∀ k : Fin 16, ¬(off ≤ k.val ∧ k.val < off + d) → col k = 0) :
    ∑ k : Fin 16, x k * col k = ∑ i : Fin d, x ⟨off + i.val, by have := i.isLt; omega⟩ * g i := by
  symm
  refine Finset.sum_of_injOn (fun i : Fin d => (⟨off + i.val, by have := i.isLt; omega⟩ : Fin 16)) ?_ ?_ ?_ ?_
  · intro a _ b _ hab
    have := congrArg Fin.val hab
    simp only at this
    exact Fin.ext (by omega)
  · intro a _; exact Finset.mem_coe.2 (Finset.mem_univ _)
  · intro k _ hk
    rw [hout k, mul_zero]
    rintro ⟨h1, h2⟩
    exact hk ⟨⟨k.val - off, by omega⟩, Finset.mem_coe.2 (Finset.mem_univ _), Fin.ext (by simp only; omega)⟩
  · intro i _; rw [hin i]

end Cert.GradeLinear

end
-- ==== Proof.BodyValue.lean ====
/-
  The kernel body's stored value read at one entry, and three reads of the host's layout changes.

  The body stores, for a block of 16384 rows x of sixteen components, the 16 x 16 matrix M and the sixteen-entry
  bias β,

      (x · M)[r, o] + β[o] = (sum over k < 16 of x[r, k] * M[k, o]) + β[o].

  At the ideal values a change of float format is the identity, so the two roundings in front of the product
  disappear; a reshape to the same shape is the identity; the product into a zero accumulator is the sum over the
  one contracted axis (axis 1 of x against axis 0 of M); and the bias, cast to one row [1, 16] and laid along every
  row, reads β[o] at (r, o): `pay_apply`.

  The three layout reads are in row-major order:
  * the five bias vectors laid end to end read, at o, the vector whose span holds o, at o less the span's start
    (spans [0,1), [1,5), [5,11), [11,15), [15,16)): `biasOf_apply`;
  * the array [8, 2048, 128, 16] viewed as [2097152, 16] has entry (b, s, p, k) in row (b * 2048 + s) * 128 + p,
    column k: `rowsOf_apply`; and the view back reads the same way: `unrows_apply`.
-/
import proofs.«181650_j34892314313418_1_alg».proof.Proof.Gen.KernelIdeal.Skeleton
import proofs.«181650_j34892314313418_1_alg».proof.Proof.HostGlue
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Cert.KernelIdeal.Facts₀ Idealize.ShloMosaic Idealize.ShloMosaic.ValueIdx

variable [Facts]

/-! ## The product's operand indices, axis by axis

  The product contracts axis 1 of the left operand against axis 0 of the right one; the other two axes are free.
  At output index i and contraction index q the left operand is read at (i 0, q) and the right one at (q, i 1). -/

theorem lhs_axis0 (i : S16384x16.Idx) (q : dot_S16384x16_S16x16_S16384x16_1_0_0_1_n_n.contr.Idx) :
    (dot_S16384x16_S16x16_S16384x16_1_0_0_1_n_n.lhsIdx i q 0).val = (i 0).val := by
  unfold DotDims.lhsIdx
  rw [dif_neg (show ¬(0 : Fin S16384x16.rank) ∈ dot_S16384x16_S16x16_S16384x16_1_0_0_1_n_n.lhsBatch by decide), dif_pos (show (0 : Fin S16384x16.rank) ∈ dot_S16384x16_S16x16_S16384x16_1_0_0_1_n_n.lhsNonContracting by decide)]
  rfl

theorem lhs_axis1 (i : S16384x16.Idx) (q : dot_S16384x16_S16x16_S16384x16_1_0_0_1_n_n.contr.Idx) :
    (dot_S16384x16_S16x16_S16384x16_1_0_0_1_n_n.lhsIdx i q 1).val = (q ⟨0, by decide⟩).val :=
  dot_S16384x16_S16x16_S16384x16_1_0_0_1_n_n.lhsIdx_val_of_single rfl i q

theorem rhs_axis0 (i : S16384x16.Idx) (q : dot_S16384x16_S16x16_S16384x16_1_0_0_1_n_n.contr.Idx) :
    (dot_S16384x16_S16x16_S16384x16_1_0_0_1_n_n.rhsIdx i q 0).val = (q ⟨0, by decide⟩).val :=
  dot_S16384x16_S16x16_S16384x16_1_0_0_1_n_n.rhsIdx_val_of_single rfl i q

theorem rhs_axis1 (i : S16384x16.Idx) (q : dot_S16384x16_S16x16_S16384x16_1_0_0_1_n_n.contr.Idx) :
    (dot_S16384x16_S16x16_S16384x16_1_0_0_1_n_n.rhsIdx i q 1).val = (i 1).val := by
  unfold DotDims.rhsIdx
  rw [dif_neg (show ¬(1 : Fin S16x16.rank) ∈ dot_S16384x16_S16x16_S16384x16_1_0_0_1_n_n.rhsBatch by decide), dif_pos (show (1 : Fin S16x16.rank) ∈ dot_S16384x16_S16x16_S16384x16_1_0_0_1_n_n.rhsNonContracting by decide)]
  rfl

/-! ## The product and the bias row at an entry -/

/-- The product into the zero accumulator, at (r, o): the sum over the contracted axis. -/
theorem matmul_entry (x : FVec Ideal S16384x16 .bf16) (M : FVec Ideal S16x16 .bf16) (r : Fin 16384) (o : Fin 16) :
    matmul dot_S16384x16_S16x16_S16384x16_1_0_0_1_n_n none x M (constant (F := Ideal) S16384x16 .f32 0x00000000#32) (ix2 r o)
      = ∑ k : Fin 16, x (ix2 r k) * M (ix2 k o) := by
  show FloatOps.matmul dot_S16384x16_S16x16_S16384x16_1_0_0_1_n_n none x M (constant (F := Ideal) S16384x16 .f32 0x00000000#32) (ix2 r o) = _
  rw [Ideal.matmul_constant_zero_apply, ← Equiv.sum_comp (contrEquiv1 dot_S16384x16_S16x16_S16384x16_1_0_0_1_n_n 16 rfl rfl).symm]
  refine Finset.sum_congr rfl fun k _ => ?_
  have hk := contrEquiv1_symm_val dot_S16384x16_S16x16_S16384x16_1_0_0_1_n_n 16 rfl rfl k
  have el : dot_S16384x16_S16x16_S16384x16_1_0_0_1_n_n.lhsIdx (ix2 r o) ((contrEquiv1 dot_S16384x16_S16x16_S16384x16_1_0_0_1_n_n 16 rfl rfl).symm k) = ix2 r k := funext fun a => Fin.ext (by
    match a with
    | ⟨0, _⟩ => exact lhs_axis0 _ _
    | ⟨1, _⟩ => exact (lhs_axis1 _ _).trans hk)
  have er : dot_S16384x16_S16x16_S16384x16_1_0_0_1_n_n.rhsIdx (ix2 r o) ((contrEquiv1 dot_S16384x16_S16x16_S16384x16_1_0_0_1_n_n 16 rfl rfl).symm k) = ix2 k o := funext fun a => Fin.ext (by
    match a with
    | ⟨0, _⟩ => exact (rhs_axis0 _ _).trans hk
    | ⟨1, _⟩ => exact rhs_axis1 _ _)
  rw [el, er]

/-- A sixteen-entry vector cast to one row and laid along each of 16384 rows reads, at (r, o), its entry o. -/
theorem bias_row_entry {α : Type} (β : S16.Idx → α) (h1 : S16.ShapeCasts S16) (h2 : S16.ShapeCasts S1x16)
    (h3 : S1x16.Broadcasts S16384x16) (r : Fin 16384) (o : Fin 16) :
    broadcastTo S16384x16 (shapeCast S1x16 (shapeCast S16 β h1) h2) h3 (ix2 r o) = β (ix1 o) := by
  rw [broadcastTo_1b_ab_apply, shapeCast_a_1a_apply, shapeCast_self]

/-- **The stored value at (r, o)**: row r of x against column o of M, plus entry o of the bias. -/
theorem pay_apply (x : Vec Ideal S16384x16 .f32) (M : Vec Ideal S16x16 .f32) (β : Vec Ideal S16 .f32) (r : Fin 16384) (o : Fin 16) :
    k0_pay1 (F := Ideal) x M β (ix2 r o) = (∑ k : Fin 16, x (ix2 r k) * M (ix2 k o)) + β (ix1 o) := by
  unfold k0_pay1
  rw [addf_apply, matmul_entry, bias_row_entry]
  simp only [truncf_apply, shapeCast_self]

/-! ## Three layout reads -/

/-- The five bias vectors end to end, at o: the vector whose span holds o, at o less the span's start. -/
theorem biasOf_apply (β0 : (⟨S1, .f32⟩ : BufTy).Contents (Elt Ideal)) (β1 : (⟨S4, .f32⟩ : BufTy).Contents (Elt Ideal))
    (β2 : (⟨S6, .f32⟩ : BufTy).Contents (Elt Ideal)) (β3 : (⟨S4, .f32⟩ : BufTy).Contents (Elt Ideal))
    (β4 : (⟨S1, .f32⟩ : BufTy).Contents (Elt Ideal)) (o : Fin 16) :
    HostGlue.biasOf (F := Ideal) β0 β1 β2 β3 β4 (ix1 o) =
      if h0 : o.val < 1 then β0 (ix1 ⟨o.val, h0⟩)
      else if h1 : o.val < 5 then β1 (ix1 ⟨o.val - 1, by omega⟩)
      else if h2 : o.val < 11 then β2 (ix1 ⟨o.val - 5, by omega⟩)
      else if h3 : o.val < 15 then β3 (ix1 ⟨o.val - 11, by omega⟩)
      else β4 (ix1 ⟨o.val - 15, by have := o.isLt; omega⟩) := by
  unfold HostGlue.biasOf
  split
  · next h0 =>
    exact concatenate_apply_piece (0 : Fin S16.rank) _ _ (ix1 o) 0 (by show (0 : Nat) < 5; omega) S1 β0 rfl rfl 0 rfl
      (ix1 ⟨o.val, h0⟩) (fun b hb => match b with | ⟨0, _⟩ => absurd rfl hb) (by show 0 + o.val = o.val; omega)
  · next h0 =>
    split
    · next h1 =>
      exact concatenate_apply_piece (0 : Fin S16.rank) _ _ (ix1 o) 1 (by show (1 : Nat) < 5; omega) S4 β1 rfl rfl 1 rfl
        (ix1 ⟨o.val - 1, by omega⟩) (fun b hb => match b with | ⟨0, _⟩ => absurd rfl hb) (by show 1 + (o.val - 1) = o.val; omega)
    · next h1 =>
      split
      · next h2 =>
        exact concatenate_apply_piece (0 : Fin S16.rank) _ _ (ix1 o) 2 (by show (2 : Nat) < 5; omega) S6 β2 rfl rfl 5 rfl
          (ix1 ⟨o.val - 5, by omega⟩) (fun b hb => match b with | ⟨0, _⟩ => absurd rfl hb) (by show 5 + (o.val - 5) = o.val; omega)
      · next h2 =>
        split
        · next h3 =>
          exact concatenate_apply_piece (0 : Fin S16.rank) _ _ (ix1 o) 3 (by show (3 : Nat) < 5; omega) S4 β3 rfl rfl 11 rfl
            (ix1 ⟨o.val - 11, by omega⟩) (fun b hb => match b with | ⟨0, _⟩ => absurd rfl hb) (by show 11 + (o.val - 11) = o.val; omega)
        · next h3 =>
          exact concatenate_apply_piece (0 : Fin S16.rank) _ _ (ix1 o) 4 (by show (4 : Nat) < 5; omega) S1 β4 rfl rfl 15 rfl
            (ix1 ⟨o.val - 15, by have := o.isLt; omega⟩) (fun b hb => match b with | ⟨0, _⟩ => absurd rfl hb)
            (by show 15 + (o.val - 15) = o.val; omega)

/-- The rows view at row (b * 2048 + s) * 128 + p, column k, is the array at (b, s, p, k): both sit at the same
    row-major position. -/
theorem rowsOf_apply (x : (⟨S8x2048x128x16, .f32⟩ : BufTy).Contents (Elt Ideal)) (b : Fin 8) (s : Fin 2048) (p : Fin 128) (k : Fin 16) :
    HostGlue.rowsOf (F := Ideal) x (ix2 (⟨(b.val * 2048 + s.val) * 128 + p.val, by have := b.isLt; have := s.isLt; have := p.isLt; omega⟩ : Fin 2097152) k)
      = x (ix4 b s p k) := by
  unfold HostGlue.rowsOf
  exact shapeCast_apply x _ _ _ (by
    rw [Shape.rowMajor_val_four, Shape.rowMajor_val_two]
    show ((b.val * 2048 + s.val) * 128 + p.val) * 16 + k.val = ((b.val * 2048 + s.val) * 128 + p.val) * 16 + k.val
    rfl)

/-- The view back from rows to [8, 2048, 128, 16], at (b, s, p, o), is row (b * 2048 + s) * 128 + p, column o. -/
theorem unrows_apply (y : (⟨S2097152x16, .f32⟩ : BufTy).Contents (Elt Ideal)) (b : Fin 8) (s : Fin 2048) (p : Fin 128) (o : Fin 16) :
    shapeCast S8x2048x128x16 y Facts₀.shapeCasts_S2097152x16_S8x2048x128x16 (ix4 b s p o)
      = y (ix2 (⟨(b.val * 2048 + s.val) * 128 + p.val, by have := b.isLt; have := s.isLt; have := p.isLt; omega⟩ : Fin 2097152) o) := by
  exact shapeCast_apply y _ _ _ (by
    rw [Shape.rowMajor_val_four, Shape.rowMajor_val_two]
    show ((b.val * 2048 + s.val) * 128 + p.val) * 16 + o.val = ((b.val * 2048 + s.val) * 128 + p.val) * 16 + o.val
    rfl)

end Cert.KernelIdeal.BodyValue

end
-- ==== Proof.LibScatterSet.lean ====
/-
  A scatter whose body returns the update (a write), read at one index of the operand.

  `Host.scatter` is a left fold over the update's indices in row-major order; each step overwrites the element the
  update index lands on. When distinct update indices land on distinct elements, the element at an index is the
  update's value at the one update index that lands there, and the operand's own element if none does.
-/
import Idealize.ShloMosaic.PureOps.ShapeOps
import Idealize.ShloMosaic.Lib.ValueIdx

namespace Idealize.ShloMosaic

open Idealize.ShloMosaic.ValueIdx

section ScatterSet
variable {s si u : Shape} {α : Type} {w : Nat}

/-- One step of the writing fold: the accumulated array `r` after update number `n` has been written. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w) (upd : u.Idx → α) :
    Host.scatter d (fun _ b => b) x idx upd = (List.finRange u.numel).foldl (setStep d idx upd) x := rfl

/-- A step whose update index does not land on `i'` leaves the element at `i'` as it was. -/
private theorem setStep_of_ne (d : ScatterDims s si u) (idx : IVec si w) (upd : u.Idx → α) (r : s.Idx → α) (n : Fin u.numel)
    (i' : s.Idx) (h : d.resultIdx? (u.rowMajor.symm n) idx ≠ some i') : setStep d idx upd r n i' = r i' := by
  unfold setStep
  generalize d.resultIdx? (u.rowMajor.symm n) idx = o at h ⊢
  cases o with
  | none => rfl
  | some i =>
    have : i' ≠ i := fun e => h (by rw [e])
    simp only [if_neg this]

/-- A step whose update index lands on `i'` writes the update's element there. -/
private theorem setStep_of_eq (d : ScatterDims s si u) (idx : IVec si w) (upd : u.Idx → α) (r : s.Idx → α) (n : Fin u.numel)
    (i' : s.Idx) (h : d.resultIdx? (u.rowMajor.symm n) idx = some i') :
    setStep d idx upd r n i' = upd (u.rowMajor.symm n) := by
  unfold setStep
  rw [h]
  simp only [if_true]

/-- Steps none of which lands on `i'` leave the element at `i'` as it was. -/
private theorem foldl_setStep_of_ne (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (setStep d idx upd) r i' = r i'
  | [], _, _ => rfl
  | a :: t, r, h => by
    rw [List.foldl_cons, foldl_setStep_of_ne d idx upd i' t _ (fun n hn => h n (List.mem_cons_of_mem _ hn)),
      setStep_of_ne d idx upd r a i' (h a (List.mem_cons_self))]

/-- A writing scatter read at an element NO update index lands on: the operand's element. -/
theorem Host.scatter_set_apply_of_not_landed (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [scatter_eq_foldl]
  exact foldl_setStep_of_ne d idx upd i' _ x (fun n _ => h _)

/-- A writing scatter read at the element update index `j` lands on, when update indices that land inside the
    operand land on pairwise distinct elements: the update's element at `j`. -/
theorem Host.scatter_set_apply_of_landed (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i' : s.Idx) (hj : d.resultIdx? j idx = some i') :
    Host.scatter d (fun _ b => b) x idx upd i' = upd j := by
  rw [scatter_eq_foldl]
  have hmem : u.rowMajor j ∈ List.finRange u.numel := List.mem_finRange _
  obtain ⟨l₁, l₂, hl⟩ := List.append_of_mem hmem
  have hnd : (l₁ ++ u.rowMajor j :: l₂).Nodup := hl ▸ List.nodup_finRange _
  rw [hl, List.foldl_append, List.foldl_cons]
  have hj' : d.resultIdx? (u.rowMajor.symm (u.rowMajor j)) idx = some i' := by rw [Equiv.symm_apply_apply]; exact hj
  rw [foldl_setStep_of_ne d idx upd i' l₂ _ ?_, setStep_of_eq d idx upd _ _ i' hj', Equiv.symm_apply_apply]
  intro n hn hland
  have hnj : u.rowMajor.symm n = j := hinj _ _ _ hland hj
  have hn' : n = u.rowMajor j := by rw [← hnj, Equiv.apply_symm_apply]
  have := (List.nodup_append.1 hnd).2.1
  exact (List.nodup_cons.1 this).1 (hn' ▸ hn)

end ScatterSet

/-! ## A block written into a matrix at one corner

The operand `[N, N']`, the update a block `[U0, U1]`, ONE index vector of two words (the corner), both update axes
window axes, no inserted axis, the two words addressing axes 0 and 1. The record is given by its four fields as
equations, so that a program's own record fits by `rfl`. -/

section Rank2
variable {α : Type} {w : Nat} {N N' U0 U1 : Nat}

/-- The two axes of a rank-2 operand, as members and positions of the list `[0, 1]`. -/
private theorem mem0 : (0 : Fin 2) ∈ ([0, 1] : List (Fin 2)) := by decide
private theorem mem1 : (1 : Fin 2) ∈ ([0, 1] : List (Fin 2)) := by decide
private theorem idxOf0 : List.idxOf (0 : Fin 2) ([0, 1] : List (Fin 2)) = 0 := by decide
private theorem idxOf1 : List.idxOf (1 : Fin 2) ([0, 1] : List (Fin 2)) = 1 := by decide

/-- The window's start on axis 0 is the index vector's first word, read signed. -/
theorem scatter2_start0 (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (idx : IVec ⟨1, ![2]⟩ w) (j : (⟨2, ![U0, U1]⟩ : Shape).Idx) :
    d.start j idx 0 = (idx (ix1 0)).toInt := by
  obtain ⟨uw, iw, sd, iv, wf⟩ := d
  dsimp only at huw hiw hsd hiv
  subst huw hiw hsd hiv
  unfold ScatterDims.start
  rw [dif_pos mem0]
  congr 2
  funext b
  match b with
  | ⟨0, _⟩ =>
    unfold ScatterDims.siIdx
    rw [dif_pos rfl]
    exact Fin.ext idxOf0

/-- The window's start on axis 1 is the index vector's second word, read signed. -/
theorem scatter2_start1 (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (idx : IVec ⟨1, ![2]⟩ w) (j : (⟨2, ![U0, U1]⟩ : Shape).Idx) :
    d.start j idx 1 = (idx (ix1 1)).toInt := by
  obtain ⟨uw, iw, sd, iv, wf⟩ := d
  dsimp only at huw hiw hsd hiv
  subst huw hiw hsd hiv
  unfold ScatterDims.start
  rw [dif_pos mem1]
  congr 2
  funext b
  match b with
  | ⟨0, _⟩ =>
    unfold ScatterDims.siIdx
    rw [dif_pos rfl]
    exact Fin.ext idxOf1

/-- The window coordinate on axis 0 is the update index's first coordinate. -/
theorem scatter2_window0 (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (j : (⟨2, ![U0, U1]⟩ : Shape).Idx) :
    d.window j 0 = (j 0).val := by
  obtain ⟨uw, iw, sd, iv, wf⟩ := d
  dsimp only at huw hiw hsd hiv
  subst huw hiw hsd hiv
  unfold ScatterDims.window
  have hm : (0 : Fin 2) ∈ (ScatterDims.sKept (s := ⟨2, ![N, N']⟩) (si := ⟨1, ![2]⟩) (u := ⟨2, ![U0, U1]⟩) ⟨[0, 1], [], [0, 1], 0, wf⟩) := mem0
  rw [dif_pos hm]
  rfl

/-- The window coordinate on axis 1 is the update index's second coordinate. -/
theorem scatter2_window1 (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (j : (⟨2, ![U0, U1]⟩ : Shape).Idx) :
    d.window j 1 = (j 1).val := by
  obtain ⟨uw, iw, sd, iv, wf⟩ := d
  dsimp only at huw hiw hsd hiv
  subst huw hiw hsd hiv
  unfold ScatterDims.window
  have hm : (1 : Fin 2) ∈ (ScatterDims.sKept (s := ⟨2, ![N, N']⟩) (si := ⟨1, ![2]⟩) (u := ⟨2, ![U0, U1]⟩) ⟨[0, 1], [], [0, 1], 0, wf⟩) := mem1
  rw [dif_pos hm]
  rfl

/-- Where update index `j` lands, if it lands inside the operand: on each axis the corner's word plus `j`'s coordinate. -/
theorem scatter2_resultIdx_coords (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (idx : IVec ⟨1, ![2]⟩ w) (r0 c0 : Nat)
    (hr : (idx (ix1 0)).toInt = (r0 : Int)) (hc : (idx (ix1 1)).toInt = (c0 : Int))
    (j : (⟨2, ![U0, U1]⟩ : Shape).Idx) (i : (⟨2, ![N, N']⟩ : Shape).Idx) (h : d.resultIdx? j idx = some i) :
    (i 0).val = r0 + (j 0).val ∧ (i 1).val = c0 + (j 1).val := by
  unfold ScatterDims.resultIdx? at h
  by_cases hall : ∀ a, 0 ≤ d.start j idx a + d.window j a ∧ d.start j idx a + d.window j a < (⟨2, ![N, N']⟩ : Shape).size a
  · rw [dif_pos hall] at h
    have hi := Option.some.inj h
    subst hi
    refine ⟨?_, ?_⟩
    · show (d.start j idx 0 + d.window j 0).toNat = r0 + (j 0).val
      rw [scatter2_start0 d huw hiw hsd hiv, scatter2_window0 d huw hiw hsd hiv, hr]; omega
    · show (d.start j idx 1 + d.window j 1).toNat = c0 + (j 1).val
      rw [scatter2_start1 d huw hiw hsd hiv, scatter2_window1 d huw hiw hsd hiv, hc]; omega
  · rw [dif_neg hall] at h; exact absurd h (by simp)

/-- Update index `(a, b)` lands on `(r0 + a, c0 + b)` when that is inside the operand. -/
theorem scatter2_resultIdx (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (idx : IVec ⟨1, ![2]⟩ w) (r0 c0 : Nat)
    (hr : (idx (ix1 0)).toInt = (r0 : Int)) (hc : (idx (ix1 1)).toInt = (c0 : Int))
    (a : Fin U0) (b : Fin U1) (h0 : r0 + a.val < N) (h1 : c0 + b.val < N') :
    d.resultIdx? (ix2 a b) idx = some (ix2 ⟨r0 + a.val, h0⟩ ⟨c0 + b.val, h1⟩) := by
  have e0 : d.start (ix2 a b) idx 0 + d.window (ix2 a b) 0 = ((r0 + a.val : Nat) : Int) := by
    rw [scatter2_start0 d huw hiw hsd hiv, scatter2_window0 d huw hiw hsd hiv, hr]; push_cast; rfl
  have e1 : d.start (ix2 a b) idx 1 + d.window (ix2 a b) 1 = ((c0 + b.val : Nat) : Int) := by
    rw [scatter2_start1 d huw hiw hsd hiv, scatter2_window1 d huw hiw hsd hiv, hc]; push_cast; rfl
  have hall : ∀ a', 0 ≤ d.start (ix2 a b) idx a' + d.window (ix2 a b) a' ∧
      d.start (ix2 a b) idx a' + d.window (ix2 a b) a' < (⟨2, ![N, N']⟩ : Shape).size a' := by
    intro a'
    match a' with
    | ⟨0, _⟩ => show 0 ≤ d.start (ix2 a b) idx 0 + d.window (ix2 a b) 0 ∧ d.start (ix2 a b) idx 0 + d.window (ix2 a b) 0 < (N : Int)
                rw [e0]; omega
    | ⟨1, _⟩ => show 0 ≤ d.start (ix2 a b) idx 1 + d.window (ix2 a b) 1 ∧ d.start (ix2 a b) idx 1 + d.window (ix2 a b) 1 < (N' : Int)
                rw [e1]; omega
  unfold ScatterDims.resultIdx?
  rw [dif_pos hall]
  congr 1
  funext a'
  match a' with
  | ⟨0, _⟩ => exact Fin.ext (show (d.start (ix2 a b) idx 0 + d.window (ix2 a b) 0).toNat = r0 + a.val by rw [e0]; omega)
  | ⟨1, _⟩ => exact Fin.ext (show (d.start (ix2 a b) idx 1 + d.window (ix2 a b) 1).toNat = c0 + b.val by rw [e1]; omega)

/-- A writing scatter of a `[U0, U1]` block into an `[N, N']` operand at ONE corner `(r0, c0)` (the index vector's two
    words, read signed), the record given by its four fields: entry `(k, o)` is the block's entry `(k - r0, o - c0)` when
    `(k, o)` lies in the block's window, and the operand's own entry otherwise. -/
theorem Host.scatter_set_ix2_apply (d : ScatterDims ⟨2, ![N, N']⟩ ⟨1, ![2]⟩ ⟨2, ![U0, U1]⟩)
    (huw : d.updateWindowDims = [0, 1]) (hiw : d.insertedWindowDims = []) (hsd : d.scatterDimsToOperandDims = [0, 1])
    (hiv : d.indexVectorDim = 0) (x : (⟨2, ![N, N']⟩ : Shape).Idx → α) (idx : IVec ⟨1, ![2]⟩ w)
    (upd : (⟨2, ![U0, U1]⟩ : Shape).Idx → α) (r0 c0 : Nat)
    (hr : (idx (ix1 0)).toInt = (r0 : Int)) (hc : (idx (ix1 1)).toInt = (c0 : Int)) (k : Fin N) (o : Fin N') :
    Host.scatter d (fun _ b => b) x idx upd (ix2 k o) =
      if h : (r0 ≤ k.val ∧ k.val < r0 + U0) ∧ (c0 ≤ o.val ∧ o.val < c0 + U1) then
        upd (ix2 ⟨k.val - r0, by omega⟩ ⟨o.val - c0, by omega⟩)
      else x (ix2 k o) := by
  by_cases h : (r0 ≤ k.val ∧ k.val < r0 + U0) ∧ (c0 ≤ o.val ∧ o.val < c0 + U1)
  · rw [dif_pos h]
    refine Host.scatter_set_apply_of_landed d x idx upd ?_ _ _ ?_
    · intro j j' i hj hj'
      have c := scatter2_resultIdx_coords d huw hiw hsd hiv idx r0 c0 hr hc j i hj
      have c' := scatter2_resultIdx_coords d huw hiw hsd hiv idx r0 c0 hr hc j' i hj'
      rw [eq_ix2 j, eq_ix2 j']
      have a0 : j 0 = j' 0 := Fin.ext (by omega)
      have a1 : j 1 = j' 1 := Fin.ext (by omega)
      rw [a0, a1]
    · rw [scatter2_resultIdx d huw hiw hsd hiv idx r0 c0 hr hc ⟨k.val - r0, by omega⟩ ⟨o.val - c0, by omega⟩
        (by have := k.isLt; show r0 + (k.val - r0) < N; omega) (by have := o.isLt; show c0 + (o.val - c0) < N'; omega)]
      congr 1
      funext a'
      match a' with
      | ⟨0, _⟩ => exact Fin.ext (show r0 + (k.val - r0) = k.val by omega)
      | ⟨1, _⟩ => exact Fin.ext (show c0 + (o.val - c0) = o.val by omega)
  · rw [dif_neg h]
    refine Host.scatter_set_apply_of_not_landed d x idx upd _ ?_
    intro j hj
    have c := scatter2_resultIdx_coords d huw hiw hsd hiv idx r0 c0 hr hc j _ hj
    have b0 := idx2_lt0 j
    have b1 := idx2_lt1 j
    have k0 : ((ix2 k o : (⟨2, ![N, N']⟩ : Shape).Idx) 0).val = k.val := rfl
    have k1 : ((ix2 k o : (⟨2, ![N, N']⟩ : Shape).Idx) 1).val = o.val := rfl
    apply h
    omega

end Rank2

end Idealize.ShloMosaic
-- ==== Proof.HostMat.lean ====
/-
  The host's block-diagonal matrix read at an entry.

  The matrix starts as zeros and receives five writes, the transpose of grade g's matrix over the square block whose
  corner is (o_g, o_g). A write changes exactly the entries of its block, and the five blocks are disjoint, so entry
  (k, o) is w_g[o - o_g, k - o_g] when k and o lie in one grade g, and zero when they lie in two.
-/
import proofs.«181650_j34892314313418_1_alg».proof.Proof.HostGlue
import proofs.«181650_j34892314313418_1_alg».proof.Proof.LibScatterSet
import Idealize.ShloMosaic.Lib.ValueLayout
import Idealize.ShloMosaic.Lib.Pipeline.Value
import Idealize.ShloMosaic.PureOps.Ideal.Laws

noncomputable section

namespace Cert.KernelIdeal.HostGlue

open Idealize.ShloMosaic Idealize.SL.Sem Cert.KernelIdeal
open Cert.KernelIdeal.Facts₀
open Idealize.ShloMosaic.ValueIdx

variable [Facts]

/-- The corner's first word. -/
theorem cornerAt_fst {F : FTy → Type} [FloatOps F] (n : BitVec 32) : cornerAt (F := F) n (ix1 0) = n := by
  unfold cornerAt
  refine (concatenate_pair_apply_left (t := S2) (s₁ := S1) (s₂ := S1) 0 _ _ concatenates_S1_S1_S2_d0 (ix1 0) rfl (ix1 0) ?_).trans rfl
  intro b
  match b with
  | ⟨0, _⟩ => rfl

/-- The corner's second word. -/
theorem cornerAt_snd {F : FTy → Type} [FloatOps F] (n : BitVec 32) : cornerAt (F := F) n (ix1 1) = n := by
  unfold cornerAt
  refine (concatenate_pair_apply_right (t := S2) (s₁ := S1) (s₂ := S1) 0 _ _ concatenates_S1_S1_S2_d0 (ix1 1) rfl rfl (ix1 0) ?_ ?_).trans rfl
  · intro b hb
    match b with
    | ⟨0, _⟩ => exact absurd rfl hb
  · rfl

/-- The zero matrix's entries are zero. -/
theorem zeroMat_apply (i : S16x16.Idx) : zeroMat (F := Ideal) i = 0 := Ideal.ofBits_zero_f32

/-- One write: the transpose of a `[d, d]` matrix `wg` written over the block with corner `(c, c)` of a 16 x 16 matrix
    `M`. Entry `(k, o)` of the block is `wg[o - c, k - c]`; outside the block the matrix is unchanged. -/
theorem write_apply {dg : Nat} (d : ScatterDims S16x16 S2 ⟨2, ![dg, dg]⟩)
    (huw : d.updateWindowDims = [0, 1]) (hiw : d.insertedWindowDims = []) (hsd : d.scatterDimsToOperandDims = [0, 1])
    (hiv : d.indexVectorDim = 0) (M : S16x16.Idx → EReal) (n : BitVec 32) (c : Nat) (hn : n.toInt = (c : Int))
    (wg : (⟨2, ![dg, dg]⟩ : Shape).Idx → EReal) (ht : (⟨2, ![dg, dg]⟩ : Shape).Transposes [1, 0] ⟨2, ![dg, dg]⟩)
    (k o : Fin 16) :
    Host.scatter d (fun _ b => b) M (cornerAt (F := Ideal) n) (transpose ⟨2, ![dg, dg]⟩ [1, 0] wg ht) (ix2 k o) =
      if h : (c ≤ k.val ∧ k.val < c + dg) ∧ (c ≤ o.val ∧ o.val < c + dg) then
        wg (ix2 ⟨o.val - c, by omega⟩ ⟨k.val - c, by omega⟩)
      else M (ix2 k o) := by
  rw [Host.scatter_set_ix2_apply d huw hiw hsd hiv M (cornerAt (F := Ideal) n) _ c c
    (by rw [cornerAt_fst]; exact hn) (by rw [cornerAt_snd]; exact hn) k o]
  by_cases h : (c ≤ k.val ∧ k.val < c + dg) ∧ (c ≤ o.val ∧ o.val < c + dg)
  · rw [dif_pos h, dif_pos h, transpose_ix2_apply]
  · rw [dif_neg h, dif_neg h]

/-- Entry (k, o) of the block-diagonal matrix: w_g[o - o_g, k - o_g] when k and o lie in one grade g (the five grades'
    spans being [0, 1), [1, 5), [5, 11), [11, 15), [15, 16)), zero otherwise. -/
theorem matOf_apply (w0 : (⟨S1x1, .f32⟩ : BufTy).Contents (Elt Ideal)) (w1 : (⟨S4x4, .f32⟩ : BufTy).Contents (Elt Ideal))
    (w2 : (⟨S6x6, .f32⟩ : BufTy).Contents (Elt Ideal)) (w3 : (⟨S4x4, .f32⟩ : BufTy).Contents (Elt Ideal))
    (w4 : (⟨S1x1, .f32⟩ : BufTy).Contents (Elt Ideal)) (k o : Fin 16) :
    matOf (F := Ideal) w0 w1 w2 w3 w4 (ix2 k o) =
      if h : k.val < 1 ∧ o.val < 1 then w0 (ix2 ⟨o.val, by omega⟩ ⟨k.val, by omega⟩)
      else if h : (1 ≤ k.val ∧ k.val < 5) ∧ (1 ≤ o.val ∧ o.val < 5) then w1 (ix2 ⟨o.val - 1, by omega⟩ ⟨k.val - 1, by omega⟩)
      else if h : (5 ≤ k.val ∧ k.val < 11) ∧ (5 ≤ o.val ∧ o.val < 11) then w2 (ix2 ⟨o.val - 5, by omega⟩ ⟨k.val - 5, by omega⟩)
      else if h : (11 ≤ k.val ∧ k.val < 15) ∧ (11 ≤ o.val ∧ o.val < 15) then w3 (ix2 ⟨o.val - 11, by omega⟩ ⟨k.val - 11, by omega⟩)
      else if h : 15 ≤ k.val ∧ 15 ≤ o.val then w4 (ix2 ⟨o.val - 15, by omega⟩ ⟨k.val - 15, by omega⟩)
      else 0 := by
  have hk := k.isLt
  have ho := o.isLt
  unfold matOf
  rw [write_apply scatter_S16x16_S2_S1x1_01_n_01_0 rfl rfl rfl rfl _ 15#32 15 (by decide) w4 transposes_S1x1_S1x1_1_0 k o,
    write_apply scatter_S16x16_S2_S4x4_01_n_01_0 rfl rfl rfl rfl _ 11#32 11 (by decide) w3 transposes_S4x4_S4x4_1_0 k o,
    write_apply scatter_S16x16_S2_S6x6_01_n_01_0 rfl rfl rfl rfl _ 5#32 5 (by decide) w2 transposes_S6x6_S6x6_1_0 k o,
    write_apply scatter_S16x16_S2_S4x4_01_n_01_0 rfl rfl rfl rfl _ 1#32 1 (by decide) w1 transposes_S4x4_S4x4_1_0 k o,
    write_apply scatter_S16x16_S2_S1x1_01_n_01_0 rfl rfl rfl rfl _ 0#32 0 (by decide) w0 transposes_S1x1_S1x1_1_0 k o,
    zeroMat_apply]
  split_ifs <;> first | rfl | (exfalso; omega)

end Cert.KernelIdeal.HostGlue

end
-- ==== Proof.KernelValue.lean ====
/-
  The value of the kernel program at the ideal instance: its result array is the grade-wise linear map of the
  specification.

  The host arithmetic in front of the call leaves three arrays: the multivectors as 2097152 rows of 16 (`rowsOf`),
  the block-diagonal 16 x 16 matrix (`matOf`) and the joined bias (`biasOf`).  Grid point t of the call reads rows
  16384 t .. 16384 t + 16383, the whole matrix and the whole bias, and writes back the same rows of

      callOut X M β [R, o] = (sum over k < 16 of X[R, k] * M[k, o]) + β[o].

  The 128 blocks tile the rows, so the call's output array is `callOut` of the three; the reshape after the call reads
  row (b * 2048 + s) * 128 + p as the multivector (b, s, p).  The column o of the matrix vanishes outside the grade
  of o, where it is the row o - o_g of that grade's matrix: the sum over sixteen components is the grade's own sum.
-/
import proofs.«181650_j34892314313418_1_alg».proof.Proof.KernelIdealFrame
import proofs.«181650_j34892314313418_1_alg».proof.Proof.HostGlue
import proofs.«181650_j34892314313418_1_alg».proof.Proof.GradeSpec
import proofs.«181650_j34892314313418_1_alg».proof.Proof.BodyValue
import proofs.«181650_j34892314313418_1_alg».proof.Proof.HostMat
import Idealize.ShloMosaic.Lib.StableHlo.Run
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Cert.KernelIdeal.HostGlue Cert.GradeLinear
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The three arrays the call stages -/

/-- The rows: the reshape of the first argument. -/
theorem V_rows (c : Dev nD) : (V m c main_v27 : S2097152x16.Idx → Elt Ideal .f32) = rowsOf (F := Ideal) (m ((c : Thread nD τ).loc main_arg0)) := by
  show StableHlo.after hostOps0 (fun b => m (c, b)) (Proc.devRef .tc main_v27) = _
  after_results
  rfl

/-- The bias: the five bias arguments end to end. -/
theorem V_bias (c : Dev nD) : (V m c main_v26 : S16.Idx → Elt Ideal .f32) = biasOf (F := Ideal) (m ((c : Thread nD τ).loc main_arg2)) (m ((c : Thread nD τ).loc main_arg4)) (m ((c : Thread nD τ).loc main_arg6)) (m ((c : Thread nD τ).loc main_arg8)) (m ((c : Thread nD τ).loc main_arg10)) := by
  show StableHlo.after hostOps0 (fun b => m (c, b)) (Proc.devRef .tc main_v26) = _
  after_results
  rfl

set_option maxHeartbeats 1000000 in
/-- The matrix: the five writes of the transposed grade matrices into the zero matrix. -/
theorem V_mat (c : Dev nD) : (V m c main_v25 : S16x16.Idx → Elt Ideal .f32) = matOf (F := Ideal) (m ((c : Thread nD τ).loc main_arg1)) (m ((c : Thread nD τ).loc main_arg3)) (m ((c : Thread nD τ).loc main_arg5)) (m ((c : Thread nD τ).loc main_arg7)) (m ((c : Thread nD τ).loc main_arg9)) := by
  show StableHlo.after hostOps0 (fun b => m (c, b)) (Proc.devRef .tc main_v25) = _
  after_results_simp
  rfl

/-! ## What the call writes -/

/-- Rows times matrix plus bias, entry by entry. -/
def callOut (X : S2097152x16.Idx → EReal) (M : S16x16.Idx → EReal) (β : S16.Idx → EReal) : S2097152x16.Idx → EReal :=
  fun i => (∑ k : Fin 16, X (ix2 (i 0) k) * M (ix2 k (i 1))) + β (ix1 (i 1))

theorem hz2 : (![0, 0] : Fin 2 → Nat) = fun _ => 0 := funext fun a => by fin_cases a <;> rfl
theorem hz1 : (![0] : Fin 1 → Nat) = fun _ => 0 := funext fun a => by fin_cases a; rfl

/-- Where the windows' blocks sit, decided over the 128 points: the rows' and the output's block t is block t of the
    rows, the matrix and the bias are one block. -/
theorem where_blocks : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-! ## One grid point writes back its rows of `callOut` -/

/-- The three input blocks at point t, at their literal types. -/
abbrev rowsBlk (c : Dev nD) (t : Fin cfg0.N) : Vec Ideal S16384x16 .f32 := iblk m c 0 t
abbrev matBlk (c : Dev nD) (t : Fin cfg0.N) : Vec Ideal S16x16 .f32 := iblk m c 1 t
abbrev biasBlk (c : Dev nD) (t : Fin cfg0.N) : Vec Ideal S16 .f32 := iblk m c 2 t

/-- Row r of block t of the rows is row 16384 t + r of the array. -/
theorem rows_block (c : Dev nD) (t : Fin cfg0.N) (r : Fin 16384) (k : Fin 16) :
    rowsBlk m c t (ix2 r k) = V m c main_v27 (ix2 (⟨16384 * t.val + r.val, by have := t.isLt; have := r.isLt; have : cfg0.N = 128 := N_0; omega⟩ : Fin 2097152) k) := by
  obtain ⟨e0, e1, -⟩ := where_blocks t
  show V m c main_v27 (((cfg0.win 0).blk t).view.emb (ix2 r k)) = _
  congr 1
  funext a; apply Fin.ext
  match a with
  | ⟨0, _⟩ => show win0_0.index t (0 : Fin 2) * 16384 + 1 * r.val = 16384 * t.val + r.val; omega
  | ⟨1, _⟩ => show win0_0.index t (1 : Fin 2) * 16 + 1 * k.val = k.val; omega

/-- The matrix's one block is the matrix. -/
theorem mat_block (c : Dev nD) (t : Fin cfg0.N) (k o : Fin 16) : matBlk m c t (ix2 k o) = V m c main_v25 (ix2 k o) := by
  obtain ⟨-, -, e2, e3, -⟩ := where_blocks t
  show V m c main_v25 (((cfg0.win 1).blk t).view.emb (ix2 k o)) = _
  congr 1
  funext a; apply Fin.ext
  match a with
  | ⟨0, _⟩ => show win0_1.index t (0 : Fin 2) * 16 + 1 * k.val = k.val; omega
  | ⟨1, _⟩ => show win0_1.index t (1 : Fin 2) * 16 + 1 * o.val = o.val; omega

/-- The bias's one block is the bias. -/
theorem bias_block (c : Dev nD) (t : Fin cfg0.N) (o : Fin 16) : biasBlk m c t (ix1 o) = V m c main_v26 (ix1 o) := by
  obtain ⟨-, -, -, -, e4, -⟩ := where_blocks t
  show V m c main_v26 (((cfg0.win 2).blk t).view.emb (ix1 o)) = _
  congr 1
  funext a; apply Fin.ext
  match a with
  | ⟨0, _⟩ => show win0_2.index t (0 : Fin 1) * 16 + 1 * o.val = o.val; omega

/-- `callOut` at explicit coordinates. -/
theorem callOut_apply (X : S2097152x16.Idx → EReal) (M : S16x16.Idx → EReal) (β : S16.Idx → EReal) (R : Fin 2097152) (o : Fin 16) :
    callOut X M β (ix2 R o) = (∑ k : Fin 16, X (ix2 R k) * M (ix2 k o)) + β (ix1 o) := rfl

/-- What point t writes back is block t of `callOut` of the three arrays. -/
theorem flushed_eq (c : Dev nD) (t : Fin cfg0.N) :
    (dats m 0 c).flushed 3 t = ((cfg0.win 3).blk t).view.read (Elt Ideal) (callOut (V m c main_v27) (V m c main_v25) (V m c main_v26)) := by
  show (cfg0.win 3).cut (grid0.coords t) ((dats m 0 c).after 3 t) = _
  rw [after_out]
  unfold outBlock
  rw [View.canon_unit_zero hz2]
  simp only [View.ld_unit_zero (S := S16384x16) hz2, View.ld_unit_zero (S := S16x16) hz2, View.ld_unit_zero (S := S16) hz1]
  funext j
  obtain ⟨r, o, rfl⟩ : ∃ (r : Fin 16384) (o : Fin 16), j = ix2 r o := ⟨j 0, j 1, eq_ix2 j⟩
  show k0_pay1 (F := Ideal) (rowsBlk m c t) (matBlk m c t) (biasBlk m c t) (ix2 r o)
    = callOut (V m c main_v27) (V m c main_v25) (V m c main_v26) (((cfg0.win 3).blk t).view.emb (ix2 r o))
  rw [BodyValue.pay_apply]
  obtain ⟨-, -, -, -, -, e5, e6⟩ := where_blocks t
  have hemb : ((cfg0.win 3).blk t).view.emb (ix2 r o)
      = ix2 (⟨16384 * t.val + r.val, by have := t.isLt; have := r.isLt; have : cfg0.N = 128 := N_0; omega⟩ : Fin 2097152) o := by
    funext a; apply Fin.ext
    match a with
    | ⟨0, _⟩ => show win0_3.index t (0 : Fin 2) * 16384 + 1 * r.val = 16384 * t.val + r.val; omega
    | ⟨1, _⟩ => show win0_3.index t (1 : Fin 2) * 16 + 1 * o.val = o.val; omega
  rw [hemb, callOut_apply, bias_block]
  simp only [rows_block, mat_block]

/-- An index of the output array lies in point t's block exactly when its row does. -/
theorem mem_block (t : Fin cfg0.N) (i : S2097152x16.Idx) :
    i ∈ ((cfg0.win 3).blk t).view.set ↔ ∀ a : Fin 2, win0_3.index t a * S16384x16.size a ≤ (i a).val ∧ (i a).val < win0_3.index t a * S16384x16.size a + S16384x16.size a := by
  show i ∈ ((View.whole main_v28).slice (win0_3.rect t)).set ↔ _
  rw [View.set_slice_whole, Rect.mem_set_unit]
  exact Iff.rfl

/-- The 128 blocks of 16384 rows tile the 2097152 rows: row R lies in block R / 16384. -/
theorem blocks_cover (i : S2097152x16.Idx) : ∃ t : Fin cfg0.N, (cfg0.win 3).flush t = true ∧ i ∈ ((cfg0.win 3).blk t).view.set := by
  have hi0 : (i 0).val < 2097152 := (i 0).isLt
  have hi1 : (i 1).val < 16 := (i 1).isLt
  have hN : cfg0.N = 128 := N_0
  refine ⟨⟨(i 0).val / 16384, by omega⟩, flush0_3 _, ?_⟩
  rw [mem_block]
  obtain ⟨-, -, -, -, -, e5, e6⟩ := where_blocks ⟨(i 0).val / 16384, by omega⟩
  intro a
  match a with
  | ⟨0, _⟩ =>
    show win0_3.index _ (0 : Fin 2) * 16384 ≤ (i 0).val ∧ (i 0).val < win0_3.index _ (0 : Fin 2) * 16384 + 16384
    rw [e5]; show (i 0).val / 16384 * 16384 ≤ (i 0).val ∧ (i 0).val < (i 0).val / 16384 * 16384 + 16384; omega
  | ⟨1, _⟩ =>
    show win0_3.index _ (1 : Fin 2) * 16 ≤ (i 1).val ∧ (i 1).val < win0_3.index _ (1 : Fin 2) * 16 + 16
    rw [e6]; omega

/-- The call's output array after the run. -/
theorem call_result (c : Dev nD) :
    (dats m 0 c).arrAt 3 cfg0.N = callOut (V m c main_v27) (V m c main_v25) (V m c main_v26) :=
  (dats m 0 c).arrAt_eq_of_cover 3 _ (fun t _ => flushed_eq m c t) blocks_cover

/-! ## The result buffer -/

/-- The result is the reshape of the call's output array. -/
theorem result_eq (c : Dev nD) :
    (Pipeline.afterTail₀ cfgs (dats m) 0 (V0 m) [hostOps1] c main_v29 : S8x2048x128x16.Idx → EReal)
      = shapeCast S8x2048x128x16 (callOut (V m c main_v27) (V m c main_v25) (V m c main_v26)) Facts₀.shapeCasts_S2097152x16_S8x2048x128x16 := by
  unfold Pipeline.afterTail₀
  show StableHlo.after hostOps1 _ (Proc.devRef .tc main_v29) = _
  after_results
  rw [show Pipeline.withArrays spec0 c (V0 m c) (fun w => (dats m 0 c).arrAt w cfg0.N) (Proc.devRef .tc main_v28)
      = callOut (V m c main_v27) (V m c main_v25) (V m c main_v26) from
    (Pipeline.withArrays_arr spec0 launch0.win.arr_inj c _ _ 3).trans (call_result m c)]
  rfl

/-! ## The call's output is the grade-wise linear map -/

/-- Entry (b, s, p, o) of the result, from the arguments: the sixteen-term sum against column o of the block-diagonal
    matrix is the sum over the grade of o against row o - o_g of that grade's matrix, and entry o of the joined bias
    is entry o - o_g of that grade's bias. -/
theorem callOut_is_gradeLinear (x : S8x2048x128x16.Idx → EReal) (w0 : S1x1.Idx → EReal) (β0 : S1.Idx → EReal)
    (w1 : S4x4.Idx → EReal) (β1 : S4.Idx → EReal) (w2 : S6x6.Idx → EReal) (β2 : S6.Idx → EReal)
    (w3 : S4x4.Idx → EReal) (β3 : S4.Idx → EReal) (w4 : S1x1.Idx → EReal) (β4 : S1.Idx → EReal)
    (b : Fin 8) (s : Fin 2048) (p : Fin 128) (o : Fin 16) :
    shapeCast S8x2048x128x16 (callOut (rowsOf (F := Ideal) x) (matOf (F := Ideal) w0 w1 w2 w3 w4) (biasOf (F := Ideal) β0 β1 β2 β3 β4))
        Facts₀.shapeCasts_S2097152x16_S8x2048x128x16 (ix4 b s p o)
      = gradeLinear x w0 β0 w1 β1 w2 β2 w3 β3 w4 β4 b s p o := by
  rw [BodyValue.unrows_apply, callOut_apply]
  simp only [BodyValue.rowsOf_apply]
  rw [BodyValue.biasOf_apply]
  unfold gradeLinear
  have ho := o.isLt
  by_cases h0 : o.val < 1
  · simp only [dif_pos h0]
    unfold gradeAt
    refine congrArg₂ (· + ·) ?_ rfl
    refine sum_grade_column 0 1 (by omega) (fun k => x (ix4 b s p k)) (fun k => matOf (F := Ideal) w0 w1 w2 w3 w4 (ix2 k o)) (fun i => w0 (ix2 ⟨o.val - 0, by omega⟩ i)) ?_ ?_
    · intro i
      have hi := i.isLt
      rw [HostGlue.matOf_apply]
      split_ifs with c0 c1 c2 c3 c4 <;> first
        | (exfalso; (try dsimp only at *); omega)
        | exact congrArg (fun q => w0 (ix2 ⟨o.val - 0, by omega⟩ q)) (Fin.ext (by dsimp only; omega))
    · intro k hk
      rw [HostGlue.matOf_apply]
      split_ifs with c0 c1 c2 c3 c4 <;> first
        | rfl
        | (exfalso; (try dsimp only at *); omega)
  · simp only [dif_neg h0]
    by_cases h1 : o.val < 5
    · simp only [dif_pos h1]
      unfold gradeAt
      refine congrArg₂ (· + ·) ?_ rfl
      refine sum_grade_column 1 4 (by omega) (fun k => x (ix4 b s p k)) (fun k => matOf (F := Ideal) w0 w1 w2 w3 w4 (ix2 k o)) (fun i => w1 (ix2 ⟨o.val - 1, by omega⟩ i)) ?_ ?_
      · intro i
        have hi := i.isLt
        rw [HostGlue.matOf_apply]
        split_ifs with c0 c1 c2 c3 c4 <;> first
          | (exfalso; (try dsimp only at *); omega)
          | exact congrArg (fun q => w1 (ix2 ⟨o.val - 1, by omega⟩ q)) (Fin.ext (by dsimp only; omega))
      · intro k hk
        rw [HostGlue.matOf_apply]
        split_ifs with c0 c1 c2 c3 c4 <;> first
          | rfl
          | (exfalso; (try dsimp only at *); omega)
    · simp only [dif_neg h1]
      by_cases h2 : o.val < 11
      · simp only [dif_pos h2]
        unfold gradeAt
        refine congrArg₂ (· + ·) ?_ rfl
        refine sum_grade_column 5 6 (by omega) (fun k => x (ix4 b s p k)) (fun k => matOf (F := Ideal) w0 w1 w2 w3 w4 (ix2 k o)) (fun i => w2 (ix2 ⟨o.val - 5, by omega⟩ i)) ?_ ?_
        · intro i
          have hi := i.isLt
          rw [HostGlue.matOf_apply]
          split_ifs with c0 c1 c2 c3 c4 <;> first
            | (exfalso; (try dsimp only at *); omega)
            | exact congrArg (fun q => w2 (ix2 ⟨o.val - 5, by omega⟩ q)) (Fin.ext (by dsimp only; omega))
        · intro k hk
          rw [HostGlue.matOf_apply]
          split_ifs with c0 c1 c2 c3 c4 <;> first
            | rfl
            | (exfalso; (try dsimp only at *); omega)
      · simp only [dif_neg h2]
        by_cases h3 : o.val < 15
        · simp only [dif_pos h3]
          unfold gradeAt
          refine congrArg₂ (· + ·) ?_ rfl
          refine sum_grade_column 11 4 (by omega) (fun k => x (ix4 b s p k)) (fun k => matOf (F := Ideal) w0 w1 w2 w3 w4 (ix2 k o)) (fun i => w3 (ix2 ⟨o.val - 11, by omega⟩ i)) ?_ ?_
          · intro i
            have hi := i.isLt
            rw [HostGlue.matOf_apply]
            split_ifs with c0 c1 c2 c3 c4 <;> first
              | (exfalso; (try dsimp only at *); omega)
              | exact congrArg (fun q => w3 (ix2 ⟨o.val - 11, by omega⟩ q)) (Fin.ext (by dsimp only; omega))
          · intro k hk
            rw [HostGlue.matOf_apply]
            split_ifs with c0 c1 c2 c3 c4 <;> first
              | rfl
              | (exfalso; (try dsimp only at *); omega)
        · simp only [dif_neg h3]
          unfold gradeAt
          refine congrArg₂ (· + ·) ?_ rfl
          refine sum_grade_column 15 1 (by omega) (fun k => x (ix4 b s p k)) (fun k => matOf (F := Ideal) w0 w1 w2 w3 w4 (ix2 k o)) (fun i => w4 (ix2 ⟨o.val - 15, by omega⟩ i)) ?_ ?_
          · intro i
            have hi := i.isLt
            rw [HostGlue.matOf_apply]
            split_ifs with c0 c1 c2 c3 c4 <;> first
              | (exfalso; (try dsimp only at *); omega)
              | exact congrArg (fun q => w4 (ix2 ⟨o.val - 15, by omega⟩ q)) (Fin.ext (by dsimp only; omega))
          · intro k hk
            rw [HostGlue.matOf_apply]
            split_ifs with c0 c1 c2 c3 c4 <;> first
              | rfl
              | (exfalso; (try dsimp only at *); omega)

/-! ## The run, read -/

/-- The specification at the arguments as core `c` holds them at launch. -/
def specAt (c : Dev nD) : S8x2048x128x16.Idx → EReal := fun i =>
  gradeLinear (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1) (i 2) (i 3)

/-- The result buffer ends at the specification. -/
theorem result_is_spec (c : Dev nD) :
    (Pipeline.afterTail₀ cfgs (dats m) 0 (V0 m) [hostOps1] c main_v29 : S8x2048x128x16.Idx → EReal) = specAt m c := by
  rw [result_eq, V_rows, V_mat, V_bias]
  funext i
  obtain ⟨b, s, p, o, rfl⟩ : ∃ (b : Fin 8) (s : Fin 2048) (p : Fin 128) (o : Fin 16), i = ix4 b s p o := ⟨i 0, i 1, i 2, i 3, eq_ix4 i⟩
  exact callOut_is_gradeLinear _ _ _ _ _ _ _ _ _ _ _ b s p o

/-- Every weakly fair execution of the kernel program at the ideal instance terminates with the result at the
    specification and the arguments as launched. -/
theorem run : θ_run defs (onTc (τ := τ) (main (F := Ideal))) ⟨m, fun _ => 0, ρ⟩ (fun r => ∀ c : Dev nD,
      r.2.mem ((c.tc : Thread nD τ).loc main_v29) = specAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c =>
    ⟨((hr c).2 main_v29 (Pipeline.mem_restRefs_of main_v29 (by decide) (by decide))).trans (result_is_spec m c),
      arg_ends m r hr c 0, arg_ends m r hr c 1, arg_ends m r hr c 2, arg_ends m r hr c 3, arg_ends m r hr c 4, arg_ends m r hr c 5,
      arg_ends m r hr c 6, arg_ends m r hr c 7, arg_ends m r hr c 8, arg_ends m r hr c 9, arg_ends m r hr c 10⟩) (run_main m ρ)

end Cert.KernelIdeal.KV

end
-- ==== Proof.RefSpec.lean ====
/-
  The reference program computes the grade-wise linear map of the specification.

  Each of the five grades is read on its own: the grade's slice of the sixteen components, contracted against the
  grade's matrix (entry j of the result is row j of the matrix against the slice), plus the grade's bias broadcast
  over the leading axes.  That is one entry of `gradeAt`.  The reference's last operation lays the five results end
  to end along the last axis, at offsets 0, 1, 5, 11, 15; read at component `o` it is the grade whose span holds
  `o`, at `o` less the grade's offset.  That is `gradeLinear`.
-/
import proofs.«181650_j34892314313418_1_alg».proof.Proof.Gen.ReferenceIdeal.Read
import proofs.«181650_j34892314313418_1_alg».proof.Proof.GradeSpec

noncomputable section

namespace Cert.ReferenceIdeal.RefValue

open Cert.ReferenceIdeal Cert.ReferenceIdeal.Read Cert.GradeLinear
open Idealize.ShloMosaic Idealize.ShloMosaic.ValueIdx

/-- Grade at offset 0, 1 component: the slice, the contraction and the broadcast bias are one entry of `gradeAt`. -/
theorem grade0_apply (x0 : (⟨S8x2048x128x16, .f32⟩ : BufTy).Contents (Elt Ideal))
    (w : (⟨S1x1, .f32⟩ : BufTy).Contents (Elt Ideal)) (β : (⟨S1, .f32⟩ : BufTy).Contents (Elt Ideal))
    (b : Fin 8) (s : Fin 2048) (p : Fin 128) (j : Fin 1) :
    val_main_v4 (F := Ideal) x0 w β (ix4 b s p j) = gradeAt 0 1 (by omega) x0 w β b s p j := by
  rw [val_main_v4_apply, val_main_v1_apply, val_main_v3_apply, val_main_v2_apply, Ideal.addf_def]
  unfold gradeAt
  have hβ : idx_main_v2 (idx_main_v3 (ix4 b s p j)) = ix1 j :=
    funext fun a => Fin.ext (by match a with | ⟨0, _⟩ => (have := j.isLt; show (0 : Nat) = j.val; omega))
  rw [hβ]
  congr 1
  refine Finset.sum_congr rfl fun k _ => ?_
  rw [val_main_v0_apply]
  have hx : idx_main_v0 (lidx_main_v1 (ix4 b s p j) k)
      = ix4 b s p (⟨0 + k.val, by have := k.isLt; omega⟩ : Fin 16) :=
    funext fun a => Fin.ext (by
      match a with
      | ⟨0, _⟩ => rfl
      | ⟨1, _⟩ => rfl
      | ⟨2, _⟩ => rfl
      | ⟨3, _⟩ => (show k.val = 0 + k.val; omega))
  have hw : ridx_main_v1 (ix4 b s p j) k = ix2 j k :=
    funext fun a => Fin.ext (by match a with | ⟨0, _⟩ => rfl | ⟨1, _⟩ => rfl)
  rw [hx, hw]

/-- Grade at offset 1, 4 components: the slice, the contraction and the broadcast bias are one entry of `gradeAt`. -/
theorem grade1_apply (x0 : (⟨S8x2048x128x16, .f32⟩ : BufTy).Contents (Elt Ideal))
    (w : (⟨S4x4, .f32⟩ : BufTy).Contents (Elt Ideal)) (β : (⟨S4, .f32⟩ : BufTy).Contents (Elt Ideal))
    (b : Fin 8) (s : Fin 2048) (p : Fin 128) (j : Fin 4) :
    val_main_v9 (F := Ideal) x0 w β (ix4 b s p j) = gradeAt 1 4 (by omega) x0 w β b s p j := by
  rw [val_main_v9_apply, val_main_v6_apply, val_main_v8_apply, val_main_v7_apply, Ideal.addf_def]
  unfold gradeAt
  have hβ : idx_main_v7 (idx_main_v8 (ix4 b s p j)) = ix1 j :=
    funext fun a => Fin.ext (by match a with | ⟨0, _⟩ => rfl)
  rw [hβ]
  congr 1
  refine Finset.sum_congr rfl fun k _ => ?_
  rw [val_main_v5_apply]
  have hx : idx_main_v5 (lidx_main_v6 (ix4 b s p j) k)
      = ix4 b s p (⟨1 + k.val, by have := k.isLt; omega⟩ : Fin 16) :=
    funext fun a => Fin.ext (by
      match a with
      | ⟨0, _⟩ => rfl
      | ⟨1, _⟩ => rfl
      | ⟨2, _⟩ => rfl
      | ⟨3, _⟩ => rfl)
  have hw : ridx_main_v6 (ix4 b s p j) k = ix2 j k :=
    funext fun a => Fin.ext (by match a with | ⟨0, _⟩ => rfl | ⟨1, _⟩ => rfl)
  rw [hx, hw]

/-- Grade at offset 5, 6 components: the slice, the contraction and the broadcast bias are one entry of `gradeAt`. -/
theorem grade2_apply (x0 : (⟨S8x2048x128x16, .f32⟩ : BufTy).Contents (Elt Ideal))
    (w : (⟨S6x6, .f32⟩ : BufTy).Contents (Elt Ideal)) (β : (⟨S6, .f32⟩ : BufTy).Contents (Elt Ideal))
    (b : Fin 8) (s : Fin 2048) (p : Fin 128) (j : Fin 6) :
    val_main_v14 (F := Ideal) x0 w β (ix4 b s p j) = gradeAt 5 6 (by omega) x0 w β b s p j := by
  rw [val_main_v14_apply, val_main_v11_apply, val_main_v13_apply, val_main_v12_apply, Ideal.addf_def]
  unfold gradeAt
  have hβ : idx_main_v12 (idx_main_v13 (ix4 b s p j)) = ix1 j :=
    funext fun a => Fin.ext (by match a with | ⟨0, _⟩ => rfl)
  rw [hβ]
  congr 1
  refine Finset.sum_congr rfl fun k _ => ?_
  rw [val_main_v10_apply]
  have hx : idx_main_v10 (lidx_main_v11 (ix4 b s p j) k)
      = ix4 b s p (⟨5 + k.val, by have := k.isLt; omega⟩ : Fin 16) :=
    funext fun a => Fin.ext (by
      match a with
      | ⟨0, _⟩ => rfl
      | ⟨1, _⟩ => rfl
      | ⟨2, _⟩ => rfl
      | ⟨3, _⟩ => rfl)
  have hw : ridx_main_v11 (ix4 b s p j) k = ix2 j k :=
    funext fun a => Fin.ext (by match a with | ⟨0, _⟩ => rfl | ⟨1, _⟩ => rfl)
  rw [hx, hw]

/-- Grade at offset 11, 4 components: the slice, the contraction and the broadcast bias are one entry of `gradeAt`. -/
theorem grade3_apply (x0 : (⟨S8x2048x128x16, .f32⟩ : BufTy).Contents (Elt Ideal))
    (w : (⟨S4x4, .f32⟩ : BufTy).Contents (Elt Ideal)) (β : (⟨S4, .f32⟩ : BufTy).Contents (Elt Ideal))
    (b : Fin 8) (s : Fin 2048) (p : Fin 128) (j : Fin 4) :
    val_main_v19 (F := Ideal) x0 w β (ix4 b s p j) = gradeAt 11 4 (by omega) x0 w β b s p j := by
  rw [val_main_v19_apply, val_main_v16_apply, val_main_v18_apply, val_main_v17_apply, Ideal.addf_def]
  unfold gradeAt
  have hβ : idx_main_v17 (idx_main_v18 (ix4 b s p j)) = ix1 j :=
    funext fun a => Fin.ext (by match a with | ⟨0, _⟩ => rfl)
  rw [hβ]
  congr 1
  refine Finset.sum_congr rfl fun k _ => ?_
  rw [val_main_v15_apply]
  have hx : idx_main_v15 (lidx_main_v16 (ix4 b s p j) k)
      = ix4 b s p (⟨11 + k.val, by have := k.isLt; omega⟩ : Fin 16) :=
    funext fun a => Fin.ext (by
      match a with
      | ⟨0, _⟩ => rfl
      | ⟨1, _⟩ => rfl
      | ⟨2, _⟩ => rfl
      | ⟨3, _⟩ => rfl)
  have hw : ridx_main_v16 (ix4 b s p j) k = ix2 j k :=
    funext fun a => Fin.ext (by match a with | ⟨0, _⟩ => rfl | ⟨1, _⟩ => rfl)
  rw [hx, hw]

/-- Grade at offset 15, 1 component: the slice, the contraction and the broadcast bias are one entry of `gradeAt`. -/
theorem grade4_apply (x0 : (⟨S8x2048x128x16, .f32⟩ : BufTy).Contents (Elt Ideal))
    (w : (⟨S1x1, .f32⟩ : BufTy).Contents (Elt Ideal)) (β : (⟨S1, .f32⟩ : BufTy).Contents (Elt Ideal))
    (b : Fin 8) (s : Fin 2048) (p : Fin 128) (j : Fin 1) :
    val_main_v24 (F := Ideal) x0 w β (ix4 b s p j) = gradeAt 15 1 (by omega) x0 w β b s p j := by
  rw [val_main_v24_apply, val_main_v21_apply, val_main_v23_apply, val_main_v22_apply, Ideal.addf_def]
  unfold gradeAt
  have hβ : idx_main_v22 (idx_main_v23 (ix4 b s p j)) = ix1 j :=
    funext fun a => Fin.ext (by match a with | ⟨0, _⟩ => (have := j.isLt; show (0 : Nat) = j.val; omega))
  rw [hβ]
  congr 1
  refine Finset.sum_congr rfl fun k _ => ?_
  rw [val_main_v20_apply]
  have hx : idx_main_v20 (lidx_main_v21 (ix4 b s p j) k)
      = ix4 b s p (⟨15 + k.val, by have := k.isLt; omega⟩ : Fin 16) :=
    funext fun a => Fin.ext (by
      match a with
      | ⟨0, _⟩ => rfl
      | ⟨1, _⟩ => rfl
      | ⟨2, _⟩ => rfl
      | ⟨3, _⟩ => rfl)
  have hw : ridx_main_v21 (ix4 b s p j) k = ix2 j k :=
    funext fun a => Fin.ext (by match a with | ⟨0, _⟩ => rfl | ⟨1, _⟩ => rfl)
  rw [hx, hw]

/-- **The reference is the specification.**  The last operation joins the five grades' results along the component
    axis; component `o` lies in the piece whose span holds it, after the 0, 1, 5, 11 or 15 components of the pieces
    before it, and that piece's entry is the grade's entry of `gradeLinear`. -/
theorem ref_is_gradeLinear (x0 : (⟨S8x2048x128x16, .f32⟩ : BufTy).Contents (Elt Ideal))
    (x1 : (⟨S1x1, .f32⟩ : BufTy).Contents (Elt Ideal)) (x2 : (⟨S1, .f32⟩ : BufTy).Contents (Elt Ideal))
    (x3 : (⟨S4x4, .f32⟩ : BufTy).Contents (Elt Ideal)) (x4 : (⟨S4, .f32⟩ : BufTy).Contents (Elt Ideal))
    (x5 : (⟨S6x6, .f32⟩ : BufTy).Contents (Elt Ideal)) (x6 : (⟨S6, .f32⟩ : BufTy).Contents (Elt Ideal))
    (x7 : (⟨S4x4, .f32⟩ : BufTy).Contents (Elt Ideal)) (x8 : (⟨S4, .f32⟩ : BufTy).Contents (Elt Ideal))
    (x9 : (⟨S1x1, .f32⟩ : BufTy).Contents (Elt Ideal)) (x10 : (⟨S1, .f32⟩ : BufTy).Contents (Elt Ideal))
    (b : Fin 8) (s : Fin 2048) (p : Fin 128) (o : Fin 16) :
    Cert.ReferenceIdeal.Read.val_main_v25 (F := Ideal) x0 x1 x2 x3 x4 x5 x6 x7 x8 x9 x10 (Idealize.ShloMosaic.ValueIdx.ix4 b s p o)
      = Cert.GradeLinear.gradeLinear x0 x1 x2 x3 x4 x5 x6 x7 x8 x9 x10 b s p o := by
  unfold gradeLinear val_main_v25
  by_cases h0 : o.val < 1
  · rw [dif_pos h0]
    exact (concatenate_apply_piece _ _ _ (ix4 b s p o) 0 (by show (0 : Nat) < 5; omega) S8x2048x128x1
      (val_main_v4 (F := Ideal) x0 x1 x2) rfl rfl 0 rfl (ix4 b s p ⟨o.val, h0⟩)
      (fun c hc => by
        match c with
        | ⟨0, _⟩ => rfl
        | ⟨1, _⟩ => rfl
        | ⟨2, _⟩ => rfl
        | ⟨3, _⟩ => exact absurd rfl hc)
      (by show 0 + o.val = o.val; omega)).trans (grade0_apply x0 x1 x2 b s p ⟨o.val, h0⟩)
  rw [dif_neg h0]
  by_cases h1 : o.val < 5
  · rw [dif_pos h1]
    exact (concatenate_apply_piece _ _ _ (ix4 b s p o) 1 (by show (1 : Nat) < 5; omega) S8x2048x128x4
      (val_main_v9 (F := Ideal) x0 x3 x4) rfl rfl 1 rfl (ix4 b s p ⟨o.val - 1, by omega⟩)
      (fun c hc => by
        match c with
        | ⟨0, _⟩ => rfl
        | ⟨1, _⟩ => rfl
        | ⟨2, _⟩ => rfl
        | ⟨3, _⟩ => exact absurd rfl hc)
      (by show 1 + (o.val - 1) = o.val; omega)).trans (grade1_apply x0 x3 x4 b s p ⟨o.val - 1, by omega⟩)
  rw [dif_neg h1]
  by_cases h2 : o.val < 11
  · rw [dif_pos h2]
    exact (concatenate_apply_piece _ _ _ (ix4 b s p o) 2 (by show (2 : Nat) < 5; omega) S8x2048x128x6
      (val_main_v14 (F := Ideal) x0 x5 x6) rfl rfl 5 rfl (ix4 b s p ⟨o.val - 5, by omega⟩)
      (fun c hc => by
        match c with
        | ⟨0, _⟩ => rfl
        | ⟨1, _⟩ => rfl
        | ⟨2, _⟩ => rfl
        | ⟨3, _⟩ => exact absurd rfl hc)
      (by show 5 + (o.val - 5) = o.val; omega)).trans (grade2_apply x0 x5 x6 b s p ⟨o.val - 5, by omega⟩)
  rw [dif_neg h2]
  by_cases h3 : o.val < 15
  · rw [dif_pos h3]
    exact (concatenate_apply_piece _ _ _ (ix4 b s p o) 3 (by show (3 : Nat) < 5; omega) S8x2048x128x4
      (val_main_v19 (F := Ideal) x0 x7 x8) rfl rfl 11 rfl (ix4 b s p ⟨o.val - 11, by omega⟩)
      (fun c hc => by
        match c with
        | ⟨0, _⟩ => rfl
        | ⟨1, _⟩ => rfl
        | ⟨2, _⟩ => rfl
        | ⟨3, _⟩ => exact absurd rfl hc)
      (by show 11 + (o.val - 11) = o.val; omega)).trans (grade3_apply x0 x7 x8 b s p ⟨o.val - 11, by omega⟩)
  rw [dif_neg h3]
  exact (concatenate_apply_piece _ _ _ (ix4 b s p o) 4 (by show (4 : Nat) < 5; omega) S8x2048x128x1
    (val_main_v24 (F := Ideal) x0 x9 x10) rfl rfl 15 rfl (ix4 b s p ⟨o.val - 15, by have := o.isLt; omega⟩)
    (fun c hc => by
      match c with
      | ⟨0, _⟩ => rfl
      | ⟨1, _⟩ => rfl
      | ⟨2, _⟩ => rfl
      | ⟨3, _⟩ => exact absurd rfl hc)
    (by show 15 + (o.val - 15) = o.val; omega)).trans (grade4_apply x0 x9 x10 b s p ⟨o.val - 15, by have := o.isLt; omega⟩)

end Cert.ReferenceIdeal.RefValue

end
-- ==== Proof.lean ====
/-
  The certificate of the grade-wise linear layer: a Pallas kernel that multiplies every multivector (sixteen
  components in five grades of 1, 4, 6, 4, 1) by ONE block-diagonal 16 x 16 matrix and adds the joined bias, against
  the jnp reference that treats each grade on its own (slice, contraction with the grade's matrix, bias) and lays the
  five results end to end.

  Over the extended reals the two agree entry by entry: column o of the block-diagonal matrix vanishes outside the
  grade of o, a product with zero is zero whatever the other factor, and the rest of the column is the row of the
  grade's matrix that the reference contracts with; so the kernel's sum over sixteen components is the reference's
  sum over the grade (Proof/GradeSpec.lean states the map and that law; Proof/KernelValue.lean reads the kernel
  program's result as it, Proof/RefSpec.lean the reference's).  No finiteness of the inputs is used.

  The three frames: each kernel program's from its own run (Proof/KernelFrame.lean at the word level,
  Proof/KernelIdealFrame.lean at the ideal instance: the same text at two instances), the reference's from its run
  with the result dropped.  The idealization rewrote nothing, so there is nothing to preserve.
-/
import proofs.«181650_j34892314313418_1_alg».proof.Defs
import proofs.«181650_j34892314313418_1_alg».proof.Proof.Gen.Kernel
import proofs.«181650_j34892314313418_1_alg».proof.Proof.Gen.KernelIdeal
import proofs.«181650_j34892314313418_1_alg».proof.Proof.Gen.ReferenceIdeal
import proofs.«181650_j34892314313418_1_alg».proof.Proof.Gen.Pre_finite_inputs
import proofs.«181650_j34892314313418_1_alg».proof.Proof.Gen.ReferenceIdeal.Run
import proofs.«181650_j34892314313418_1_alg».proof.Proof.Gen.ReferenceIdeal.Read
import proofs.«181650_j34892314313418_1_alg».proof.Proof.KernelFrame
import proofs.«181650_j34892314313418_1_alg».proof.Proof.KernelIdealFrame
import proofs.«181650_j34892314313418_1_alg».proof.Proof.KernelValue
import proofs.«181650_j34892314313418_1_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the grade-wise linear map of the arguments, which agree. -/
theorem algebraic : Cert.algebraic_KernelIdeal_ReferenceIdeal := by
  intro m ρ m' ρ' _ hagree
  refine ⟨fun c => Cert.KernelIdeal.KV.specAt m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  funext i
  obtain ⟨b, s, p, o, rfl⟩ : ∃ (b : Fin 8) (s : Fin 2048) (p : Fin 128) (o : Fin 16), i = ix4 b s p o :=
    ⟨i 0, i 1, i 2, i 3, eq_ix4 i⟩
  exact Cert.ReferenceIdeal.RefValue.ref_is_gradeLinear _ _ _ _ _ _ _ _ _ _ _ b s p o

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
